-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S3x128x64 : Shape := ⟨3, ![3, 128, 64]⟩
abbrev S3x64x40 : Shape := ⟨3, ![3, 64, 40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64x40 : S_.BroadcastsInDim S3x64x40 (![] : Fin 0 → Fin S3x64x40.rank)
  reducesTo_S3x64x40_S_d0_1_2 : S3x64x40.ReducesTo [0, 1, 2] S_

variable [Facts]

def fn_part1 {F : FTy → Type} [FloatOps F] (main_v13 : IVec S_ 1) (main_v16 : IVec S3x64x40 1) : IVec S_ 1 :=
  let main_c_5 : IVec S_ 1 := constantI S_ 1 1#1
  let main_v17 : IVec S_ 1 := (fun x v => Host.reduce IntOp.andi x v reducesTo_S3x64x40_S_d0_1_2 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S3x128x64 .f32) (main_arg3 : FVec F S3x64x40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S3x128x64 .f32 := Host.absf main_arg2
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S3x64x40 .f32 := Host.absf main_arg3
  let main_cst_4 : FVec F S_ .f32 := constant S_ .f32 0x7F800000#32
  let main_v15 : FVec F S3x64x40 .f32 := broadcastInDim S3x64x40 ![] bcast_S_S3x64x40 main_cst_4
  let main_v16 : IVec S3x64x40 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S3x128x64 : Shape := ⟨3, ![3, 128, 64]⟩
abbrev S3x64x40 : Shape := ⟨3, ![3, 64, 40]⟩
abbrev S1x128x64 : Shape := ⟨3, ![1, 128, 64]⟩
abbrev S128x64 : Shape := ⟨2, ![128, 64]⟩
abbrev S128x192 : Shape := ⟨2, ![128, 192]⟩
abbrev S10000x192 : Shape := ⟨2, ![10000, 192]⟩
abbrev S1000x128 : Shape := ⟨2, ![1000, 128]⟩
abbrev S1000x192 : Shape := ⟨2, ![1000, 192]⟩
abbrev S10000x64 : Shape := ⟨2, ![10000, 64]⟩
abbrev S400x10000 : Shape := ⟨2, ![400, 10000]⟩
abbrev S400x64 : Shape := ⟨2, ![400, 64]⟩
abbrev S1x64x40 : Shape := ⟨3, ![1, 64, 40]⟩
abbrev S64x40 : Shape := ⟨2, ![64, 40]⟩
abbrev S64x120 : Shape := ⟨2, ![64, 120]⟩
abbrev S10000x120 : Shape := ⟨2, ![10000, 120]⟩
abbrev S1000x64 : Shape := ⟨2, ![1000, 64]⟩
abbrev S1000x120 : Shape := ⟨2, ![1000, 120]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 36
  | .vmem => 36
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x64, .f32⟩
  | .hbm, ⟨3, _⟩ => ⟨S3x64x40, .f32⟩
  | .hbm, ⟨4, _⟩ => ⟨S1x128x64, .f32⟩
  | .hbm, ⟨5, _⟩ => ⟨S128x64, .f32⟩
  | .hbm, ⟨6, _⟩ => ⟨S1x128x64, .f32⟩
  | .hbm, ⟨7, _⟩ => ⟨S128x64, .f32⟩
  | .hbm, ⟨8, _⟩ => ⟨S1x128x64, .f32⟩
  | .hbm, ⟨9, _⟩ => ⟨S128x64, .f32⟩
  | .hbm, ⟨10, _⟩ => ⟨S1x128x64, .f32⟩
  | .hbm, ⟨11, _⟩ => ⟨S128x64, .f32⟩
  | .hbm, ⟨12, _⟩ => ⟨S128x64, .f32⟩
  | .hbm, ⟨13, _⟩ => ⟨S128x192, .f32⟩
  | .hbm, ⟨14, _⟩ => ⟨S10000x192, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S1x64x40, .f32⟩
  | .hbm, ⟨21, _⟩ => ⟨S64x40, .f32⟩
  | .hbm, ⟨22, _⟩ => ⟨S1x64x40, .f32⟩
  | .hbm, ⟨23, _⟩ => ⟨S64x40, .f32⟩
  | .hbm, ⟨24, _⟩ => ⟨S1x64x40, .f32⟩
  | .hbm, ⟨25, _⟩ => ⟨S64x40, .f32⟩
  | .hbm, ⟨26, _⟩ => ⟨S1x64x40, .f32⟩
  | .hbm, ⟨27, _⟩ => ⟨S64x40, .f32⟩
  | .hbm, ⟨28, _⟩ => ⟨S64x40, .f32⟩
  | .hbm, ⟨29, _⟩ => ⟨S64x120, .f32⟩
  | .hbm, ⟨30, _⟩ => ⟨S10000x120, .f32⟩
  | .hbm, ⟨31, _⟩ => ⟨S10000x40, .f32⟩
  | .hbm, ⟨32, _⟩ => ⟨S10000x40, .f32⟩
  | .hbm, ⟨33, _⟩ => ⟨S10000x40, .f32⟩
  | .hbm, ⟨34, _⟩ => ⟨S10000x40, .f32⟩
  | .hbm, ⟨35, _⟩ => ⟨S10000x40, .f32⟩
  | .local _ .vmem, ⟨0, _⟩ => ⟨S1000x128, .f32⟩
  | .local _ .vmem, ⟨1, _⟩ => ⟨S1000x128, .f32⟩
  | .local _ .vmem, ⟨2, _⟩ => ⟨S128x192, .f32⟩
  | .local _ .vmem, ⟨3, _⟩ => ⟨S1000x192, .f32⟩
  | .local _ .vmem, ⟨4, _⟩ => ⟨S1000x192, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S400x64, .f32⟩
  | .local _ .vmem, ⟨9, _⟩ => ⟨S400x64, .f32⟩
  | .local _ .vmem, ⟨10, _⟩ => ⟨S400x10000, .f32⟩
  | .local _ .vmem, ⟨11, _⟩ => ⟨S400x10000, .f32⟩
  | .local _ .vmem, ⟨12, _⟩ => ⟨S10000x64, .f32⟩
  | .local _ .vmem, ⟨13, _⟩ => ⟨S10000x64, .f32⟩
  | .local _ .vmem, ⟨14, _⟩ => ⟨S400x64, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S1000x64, .f32⟩
  | .local _ .vmem, ⟨19, _⟩ => ⟨S1000x64, .f32⟩
  | .local _ .vmem, ⟨20, _⟩ => ⟨S64x120, .f32⟩
  | .local _ .vmem, ⟨21, _⟩ => ⟨S1000x120, .f32⟩
  | .local _ .vmem, ⟨22, _⟩ => ⟨S1000x120, .f32⟩
  | .local _ .vmem, ⟨23, _⟩ => ⟨S400x10000, .f32⟩
  | .local _ .vmem, ⟨24, _⟩ => ⟨S400x10000, .f32⟩
  | .local _ .vmem, ⟨25, _⟩ => ⟨S10000x40, .f32⟩
  | .local _ .vmem, ⟨26, _⟩ => ⟨S400x40, .f32⟩
  | .local _ .vmem, ⟨27, _⟩ => ⟨S400x40, .f32⟩
  | .local _ .vmem, ⟨28, _⟩ => ⟨S400x10000, .f32⟩
  | .local _ .vmem, ⟨29, _⟩ => ⟨S400x10000, .f32⟩
  | .local _ .vmem, ⟨30, _⟩ => ⟨S10000x40, .f32⟩
  | .local _ .vmem, ⟨31, _⟩ => ⟨S10000x40, .f32⟩
  | .local _ .vmem, ⟨32, _⟩ => ⟨S400x40, .f32⟩
  | .local _ .vmem, ⟨33, _⟩ => ⟨S400x40, .f32⟩
  | .local _ .vmem, ⟨34, _⟩ => ⟨S400x40, .f32⟩
  | .local _ .vmem, ⟨35, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x120 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x120 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10000x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S400x40 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S3x128x64_S1x128x64_2_0_0 : S3x128x64.Slices ![2, 0, 0] S1x128x64
  shapeCasts_S1x128x64_S128x64 : S1x128x64.ShapeCasts S128x64
  slices_S3x128x64_S1x128x64_1_0_0 : S3x128x64.Slices ![1, 0, 0] S1x128x64
  slices_S3x128x64_S1x128x64_0_0_0 : S3x128x64.Slices ![0, 0, 0] S1x128x64
  concatenates_S128x64_S128x64_S128x64_S128x192_d1 : Shape.Concatenates [S128x64, S128x64, S128x64] S128x192 1
  inb_S1000x128_S1000x128_0_0 : ∀ a, (![0, 0] : Fin 2 → Nat) a + S1000x128.size a ≤ S1000x128.size a
  h_S1000x128 : 0 < S1000x128.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1000x192_S1000x192_0_0 : ∀ a, (![0, 0] : Fin 2 → Nat) a + S1000x192.size a ≤ S1000x192.size a
  h_S1000x192 : 0 < S1000x192.numel
  slices_S10000x192_S10000x64_0_0 : S10000x192.Slices ![0, 0] S10000x64
  slices_S10000x192_S10000x64_0_64 : S10000x192.Slices ![0, 64] S10000x64
  slices_S10000x192_S10000x64_0_128 : S10000x192.Slices ![0, 128] S10000x64
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  shapeCasts_S400x64_S400x64 : S400x64.ShapeCasts S400x64
  slices_S3x64x40_S1x64x40_2_0_0 : S3x64x40.Slices ![2, 0, 0] S1x64x40
  shapeCasts_S1x64x40_S64x40 : S1x64x40.ShapeCasts S64x40
  slices_S3x64x40_S1x64x40_1_0_0 : S3x64x40.Slices ![1, 0, 0] S1x64x40
  slices_S3x64x40_S1x64x40_0_0_0 : S3x64x40.Slices ![0, 0, 0] S1x64x40
  concatenates_S64x40_S64x40_S64x40_S64x120_d1 : Shape.Concatenates [S64x40, S64x40, S64x40] S64x120 1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x120_S64x120_0_0 : ∀ a, (![0, 0] : Fin 2 → Nat) a + S64x120.size a ≤ S64x120.size a
  h_S64x120 : 0 < S64x120.numel
  shapeCasts_S64x120_S64x120 : S64x120.ShapeCasts S64x120
  inb_S1000x120_S1000x120_0_0 : ∀ a, (![0, 0] : Fin 2 → Nat) a + S1000x120.size a ≤ S1000x120.size a
  h_S1000x120 : 0 < S1000x120.numel
  slices_S10000x120_S10000x40_0_0 : S10000x120.Slices ![0, 0] S10000x40
  slices_S10000x120_S10000x40_0_40 : S10000x120.Slices ![0, 40] S10000x40
  slices_S10000x120_S10000x40_0_80 : S10000x120.Slices ![0, 80] S10000x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S400x40_S400x40_0_0 : ∀ a, (![0, 0] : Fin 2 → Nat) a + S400x40.size a ≤ S400x40.size a
  h_S400x40 : 0 < S400x40.numel
  shapeCasts_S400x40_S400x40 : S400x40.ShapeCasts S400x40
  reduces_S400x40_S400 : S400x40.Reduces [1] S400
  shapeCasts_S400_S400x1 : S400.ShapeCasts S400x1
  broadcasts_S400x1_S400x40 : S400x1.Broadcasts S400x40
  dot_S1000x128_S128x192_S1000x192_1_0_0_1_n_n_wf : DotDims.WF S1000x128 S128x192 S1000x192 [1] [0] [0] [1] [] []
  dot_S400x10000_S10000x64_S400x64_1_0_0_1_n_n_wf : DotDims.WF S400x10000 S10000x64 S400x64 [1] [0] [0] [1] [] []
  dot_S1000x64_S64x120_S1000x120_1_0_0_1_n_n_wf : DotDims.WF S1000x64 S64x120 S1000x120 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x192.size a ≤ S10000x192.size a
  hwx0_2 : ∀ i : grid0.Coords, EltTy.bits .f32 = 32 ∨ (Rect.block (s := S10000x192) S1000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x64.size a ≤ S10000x64.size a
  hwx1_2 : ∀ i : grid1.Coords, EltTy.bits .f32 = 32 ∨ (Rect.block (s := S10000x64) S400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S10000x64.size a
  hwx2_2 : ∀ i : grid2.Coords, EltTy.bits .f32 = 32 ∨ (Rect.block (s := S10000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S10000x64.size a
  hwx3_0 : ∀ i : grid3.Coords, EltTy.bits .f32 = 32 ∨ (Rect.block (s := S10000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x120.size a ≤ S64x120.size a
  hwx3_1 : ∀ i : grid3.Coords, EltTy.bits .f32 = 32 ∨ (Rect.block (s := S64x120) S64x120.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x120.size a ≤ S10000x120.size a
  hwx3_2 : ∀ i : grid3.Coords, EltTy.bits .f32 = 32 ∨ (Rect.block (s := S10000x120) S1000x120.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S10000x40.size a
  hwx4_1 : ∀ i : grid4.Coords, EltTy.bits .f32 = 32 ∨ (Rect.block (s := S10000x40) S10000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x40.size a ≤ S10000x40.size a
  hwx4_2 : ∀ i : grid4.Coords, EltTy.bits .f32 = 32 ∨ (Rect.block (s := S10000x40) S400x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x40.size a ≤ S10000x40.size a
  hwx5_1 : ∀ i : grid5.Coords, EltTy.bits .f32 = 32 ∨ (Rect.block (s := S10000x40) S10000x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S10000x40.size a
  hwx5_2 : ∀ i : grid5.Coords, EltTy.bits .f32 = 32 ∨ (Rect.block (s := S10000x40) S10000x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x40.size a ≤ S10000x40.size a
  hwx5_3 : ∀ i : grid5.Coords, EltTy.bits .f32 = 32 ∨ (Rect.block (s := S10000x40) S400x40.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x40.size a ≤ S10000x40.size a
  hwx5_4 : ∀ i : grid5.Coords, EltTy.bits .f32 = 32 ∨ (Rect.block (s := S10000x40) S400x40.size (cc5_transform_4 i) (hinb5_4 i)).WholeWords (EltTy.packing .f32)

variable [Facts₀]

def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S1000x64_S64x120_S1000x120_1_0_0_1_n_n : DotDims S1000x64 S64x120 S1000x120 where
  lhsContracting := [1]
  rhsContracting := [0]
  lhsNonContracting := [0]
  rhsNonContracting := [1]
  lhsBatch := []
  rhsBatch := []
  wf := dot_S1000x64_S64x120_S1000x120_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S10000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S400x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v15) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S64x120.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1000x120.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S10000x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S400x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S10000x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S10000x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S400x40.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v31) S400x40.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S3x128x64 : Shape := ⟨3, ![3, 128, 64]⟩
abbrev S3x64x40 : Shape := ⟨3, ![3, 64, 40]⟩
abbrev S1x128x64 : Shape := ⟨3, ![1, 128, 64]⟩
abbrev S128x64 : Shape := ⟨2, ![128, 64]⟩
abbrev S10000x64 : Shape := ⟨2, ![10000, 64]⟩
abbrev S_ : Shape := ⟨0, ![]⟩
abbrev S1x64x40 : Shape := ⟨3, ![1, 64, 40]⟩
abbrev S64x40 : Shape := ⟨2, ![64, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 56
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x64, .f32⟩
  | .hbm, ⟨3, _⟩ => ⟨S3x64x40, .f32⟩
  | .hbm, ⟨4, _⟩ => ⟨S1x128x64, .f32⟩
  | .hbm, ⟨5, _⟩ => ⟨S128x64, .f32⟩
  | .hbm, ⟨6, _⟩ => ⟨S10000x64, .f32⟩
  | .hbm, ⟨7, _⟩ => ⟨S10000x128, .f32⟩
  | .hbm, ⟨8, _⟩ => ⟨S1x128x64, .f32⟩
  | .hbm, ⟨9, _⟩ => ⟨S128x64, .f32⟩
  | .hbm, ⟨10, _⟩ => ⟨S10000x64, .f32⟩
  | .hbm, ⟨11, _⟩ => ⟨S10000x64, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128x64, .f32⟩
  | .hbm, ⟨18, _⟩ => ⟨S128x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S1x64x40, .f32⟩
  | .hbm, ⟨25, _⟩ => ⟨S64x40, .f32⟩
  | .hbm, ⟨26, _⟩ => ⟨S10000x40, .f32⟩
  | .hbm, ⟨27, _⟩ => ⟨S10000x64, .f32⟩
  | .hbm, ⟨28, _⟩ => ⟨S1x64x40, .f32⟩
  | .hbm, ⟨29, _⟩ => ⟨S64x40, .f32⟩
  | .hbm, ⟨30, _⟩ => ⟨S10000x40, .f32⟩
  | .hbm, ⟨31, _⟩ => ⟨S10000x40, .f32⟩
  | .hbm, ⟨32, _⟩ => ⟨S10000x64, .f32⟩
  | .hbm, ⟨33, _⟩ => ⟨S_, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S1x64x40, .f32⟩
  | .hbm, ⟨38, _⟩ => ⟨S64x40, .f32⟩
  | .hbm, ⟨39, _⟩ => ⟨S10000x40, .f32⟩
  | .hbm, ⟨40, _⟩ => ⟨S10000x40, .f32⟩
  | .hbm, ⟨41, _⟩ => ⟨S_, .f32⟩
  | .hbm, ⟨42, _⟩ => ⟨S10000, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000x1, .f32⟩
  | .hbm, ⟨47, _⟩ => ⟨S10000x40, .f32⟩
  | .hbm, ⟨48, _⟩ => ⟨S10000x40, .f32⟩
  | .hbm, ⟨49, _⟩ => ⟨S10000x40, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x1, .f32⟩
  | .hbm, ⟨54, _⟩ => ⟨S10000x40, .f32⟩
  | .hbm, ⟨55, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call1_cst : Ref sig .tc := ⟨.hbm, 41, rfl⟩
abbrev main_call1_v0 : Ref sig .tc := ⟨.hbm, 42, rfl⟩
abbrev main_call1_cst_0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_cst_1 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_v33 : Ref sig .tc := ⟨.hbm, 55, rfl⟩

abbrev nD : Nat := 1
abbrev τ : Topo := Topo.v7x

variable {F : FTy → Type} [FloatOps F]

class Facts₀ : Prop where
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  bcast_S_S10000x128 : S_.BroadcastsInDim S10000x128 (![] : Fin 0 → Fin S10000x128.rank)
  slices_S3x128x64_S1x128x64_2_0_0 : S3x128x64.Slices ![2, 0, 0] S1x128x64
  bcast_S_S10000x64 : S_.BroadcastsInDim S10000x64 (![] : Fin 0 → Fin S10000x64.rank)
  slices_S3x64x40_S1x64x40_0_0_0 : S3x64x40.Slices ![0, 0, 0] S1x64x40
  shapeCasts_S1x64x40_S64x40 : S1x64x40.ShapeCasts S64x40
  slices_S3x64x40_S1x64x40_1_0_0 : S3x64x40.Slices ![1, 0, 0] S1x64x40
  slices_S3x64x40_S1x64x40_2_0_0 : S3x64x40.Slices ![2, 0, 0] S1x64x40
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x128_S10000x128_1_0_0_1_n_n_wf : DotDims.WF S10000x10000 S10000x128 S10000x128 [1] [0] [0] [1] [] []
  dot_S10000x64_S64x40_S10000x40_1_0_0_1_n_n_wf : DotDims.WF S10000x64 S64x40 S10000x40 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KIReg1.lean ====
/-
  One kernel region's half of the frame: what the body leaves in its output block as a function of its input
  blocks, the body's triple, the pipeline's proof data at given entry contents, and the body obligation.
-/
import proofs.«116701_g5634997092996_cont_sun_m_497_4_alg».proof.Proof.Gen.KernelIdeal.Launch
import proofs.«116701_g5634997092996_cont_sun_m_497_4_alg».proof.Proof.Gen.KernelIdeal.Skeleton
import proofs.«116701_g5634997092996_cont_sun_m_497_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: a 400-row block of adj times a whole 64-column matrix -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched window's
    block index has not moved, so the block left by the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: an unfetched window's
    block index has not moved, so the block left by the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S400x64 := Rect.unit (s := S400x64) ![0, 0] S400x64.size inb_S400x64_S400x64_0_0

/-- The output window's staging buffer after the body, as a function of the input windows' blocks: the one
    whole-block store of the body's value. -/
def out1_2 (x0 : Vec F S400x10000 .f32) (x1 : Vec F S10000x64 .f32) : Vec F S400x64 .f32 :=
  View.canon [⟨r1_2, k1_pay1 (View.ld x0 r1_0) (View.ld x1 r1_1)⟩]

/-- That one store covers the whole buffer. -/
theorem cover1_2 (p0 : Vec F S400x64 .f32) (y : S400x64.Idx) :
    ∃ pc ∈ ([⟨r1_2, p0⟩] : List (View.Piece (Elt F) S400x64 .f32)), y ∈ pc.1.set :=
  View.cover_of_tiled [⟨r1_2, p0⟩] S400x64.size (by rfl) y

set_option maxHeartbeats 1000000 in
/-- The kernel body on whole staging buffers, the inputs' at given contents and the output's at anything, runs to the
    end leaving the inputs' as they were and the output's at `out1_2` of the inputs'. -/
theorem sound_kernel1 (c : Dev nD) (E : Set ℕ) (i : grid1.Coords) (arg0 : Memref sig .tc .vmem S400x10000 .f32) (harg0 : arg0.IsWhole) (arg1 : Memref sig .tc .vmem S10000x64 .f32) (harg1 : arg1.IsWhole) (arg2 : Memref sig .tc .vmem S400x64 .f32) (harg2 : arg2.IsWhole)
    (x0 : Vec F S400x10000 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__pass_plain_kernel i arg0 harg0 arg1 harg1 arg2 harg2) K := by
  simp only [cc1__pass_plain_kernel_eq_skeleton]; unfold cc1__pass_plain_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at a point each
    input's buffer still at its block and the output's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.KIReg2.lean ====
/-
  One kernel region's half of the frame: what the body leaves in its output block as a function of its input
  blocks, the body's triple, the pipeline's proof data at given entry contents, and the body obligation.
-/
import proofs.«116701_g5634997092996_cont_sun_m_497_4_alg».proof.Proof.Gen.KernelIdeal.Launch
import proofs.«116701_g5634997092996_cont_sun_m_497_4_alg».proof.Proof.Gen.KernelIdeal.Skeleton
import proofs.«116701_g5634997092996_cont_sun_m_497_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: bias block plus a 400-row block of adj times (m1 + 2 m2), then the maximum with zero -/

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched window's
    block index has not moved, so the block left by the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: an unfetched window's
    block index has not moved, so the block left by the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: an unfetched window's
    block index has not moved, so the block left by the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: an unfetched window's
    block index has not moved, so the block left by the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S10000x64 := Rect.unit (s := S10000x64) ![0, 0] S10000x64.size inb_S10000x64_S10000x64_0_0
abbrev r2_3 : Rect S400x64 := Rect.unit (s := S400x64) ![0, 0] S400x64.size inb_S400x64_S400x64_0_0
abbrev r2_4 : Rect S400x64 := Rect.unit (s := S400x64) ![0, 0] S400x64.size inb_S400x64_S400x64_0_0

/-- The output window's staging buffer after the body, as a function of the input windows' blocks: the one
    whole-block store of the body's value. -/
def out2_4 (x0 : Vec F S400x10000 .f32) (x1 : Vec F S10000x64 .f32) (x2 : Vec F S10000x64 .f32) (x3 : Vec F S400x64 .f32) : Vec F S400x64 .f32 :=
  View.canon [⟨r2_4, k2_pay1 (View.ld x1 r2_1) (View.ld x2 r2_2) (View.ld x0 r2_0) (View.ld x3 r2_3)⟩]

/-- That one store covers the whole buffer. -/
theorem cover2_4 (p0 : Vec F S400x64 .f32) (y : S400x64.Idx) :
    ∃ pc ∈ ([⟨r2_4, p0⟩] : List (View.Piece (Elt F) S400x64 .f32)), y ∈ pc.1.set :=
  View.cover_of_tiled [⟨r2_4, p0⟩] S400x64.size (by rfl) y

set_option maxHeartbeats 1000000 in
/-- The kernel body on whole staging buffers, the inputs' at given contents and the output's at anything, runs to the
    end leaving the inputs' as they were and the output's at `out2_4` of the inputs'. -/
theorem sound_kernel2 (c : Dev nD) (E : Set ℕ) (i : grid2.Coords) (arg0 : Memref sig .tc .vmem S400x10000 .f32) (harg0 : arg0.IsWhole) (arg1 : Memref sig .tc .vmem S10000x64 .f32) (harg1 : arg1.IsWhole) (arg2 : Memref sig .tc .vmem S10000x64 .f32) (harg2 : arg2.IsWhole) (arg3 : Memref sig .tc .vmem S400x64 .f32) (harg3 : arg3.IsWhole) (arg4 : Memref sig .tc .vmem S400x64 .f32) (harg4 : arg4.IsWhole)
    (x0 : Vec F S400x10000 .f32) (x1 : Vec F S10000x64 .f32) (x2 : Vec F S10000x64 .f32) (x3 : Vec F S400x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__pass_relu_kernel i arg0 harg0 arg1 harg1 arg2 harg2 arg3 harg3 arg4 harg4) K := by
  simp only [cc2__pass_relu_kernel_eq_skeleton]; unfold cc2__pass_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core `c`: the arrays as the region finds them; after the body at a point each
    input's buffer still at its block and the output's at `out2_4` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frame

end
-- ==== Proof.KIFold.lean ====
/-
  The contents of every unscoped buffer of a core at each boundary between two items of @main, as a fold from the launch
  memory: a stretch of host operations applies them; a kernel region leaves its arrays at what its pipeline's
  write-backs leave and every other buffer as it found it. The proof data of every pipeline sit at their region's
  entry contents.
-/
import proofs.«116701_g5634997092996_cont_sun_m_497_4_alg».proof.Proof.Gen.KernelIdeal.Regions
import proofs.«116701_g5634997092996_cont_sun_m_497_4_alg».proof.Proof.KIReg0
import proofs.«116701_g5634997092996_cont_sun_m_497_4_alg».proof.Proof.KIReg1
import proofs.«116701_g5634997092996_cont_sun_m_497_4_alg».proof.Proof.KIReg2
import proofs.«116701_g5634997092996_cont_sun_m_497_4_alg».proof.Proof.KIReg3
import proofs.«116701_g5634997092996_cont_sun_m_497_4_alg».proof.Proof.KIReg4
import proofs.«116701_g5634997092996_cont_sun_m_497_4_alg».proof.Proof.KIReg5

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves region 2 as it entered it. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))

/-- After the host stretch `hostOps3`. -/
abbrev W6 : Dev nD → Valuation τ sig (Elt F) := fun c => StableHlo.after hostOps3 (W5 m ρ c)
/-- The same read at the TensorCore's references. -/
abbrev V6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered it. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))

/-- After the host stretch `hostOps4`. -/
abbrev W8 : Dev nD → Valuation τ sig (Elt F) := fun c => StableHlo.after hostOps4 (W7 m ρ c)
/-- The same read at the TensorCore's references. -/
abbrev V8 : (c : Dev nD) → (b : Ref sig .tc) → Buf (Elt F) ((c : Thread nD τ).loc b) := fun c b => W8 m ρ c b

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- An input window's array leaves region 4 as it entered it. -/
theorem W9_in (c : Dev nD) (w : Fin cfg4.W) (hw : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hw _).trans (A_eq4 (V8 m ρ) c w))

/-- At region 5's exit: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references. -/
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- An input window's array leaves region 5 as it entered it. -/
theorem W10_in (c : Dev nD) (w : Fin cfg5.W) (hw : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hw _).trans (A_eq5 (V9 m ρ) c w))

/-! ## The proof data family and what rides beside the buffers -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

end Cert.KernelIdeal.Frame

end
-- ==== Proof.KISeg1.lean ====
/-
  One kernel region of @main as a segment of the run: entered with every unscoped buffer of the core at the contents of
  the boundary before it, left with them at the contents of the boundary after it. Its windows' arrays are split out of
  the unscoped buffers at entry and put back at exit; the generator register passes through the pipeline's invariant;
  nothing is owed; the kernel has no semaphore of its own.
-/
import proofs.«116701_g5634997092996_cont_sun_m_497_4_alg».proof.Proof.KIFold

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration; unifying with it unfolds plain definitions in a
-- metavariable's type
set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KIRun.lean ====
/-
  The run of @main: its ten items as segments — four stretches of host operations and six kernel regions — under the
  regions launch, ending with every unscoped buffer of every core at the last boundary's contents. The frame follows:
  each argument array is walked back through the boundaries to the launch memory.
-/
import proofs.«116701_g5634997092996_cont_sun_m_497_4_alg».proof.Proof.KISeg0
import proofs.«116701_g5634997092996_cont_sun_m_497_4_alg».proof.Proof.KISeg1
import proofs.«116701_g5634997092996_cont_sun_m_497_4_alg».proof.Proof.KISeg2
import proofs.«116701_g5634997092996_cont_sun_m_497_4_alg».proof.Proof.KISeg3
import proofs.«116701_g5634997092996_cont_sun_m_497_4_alg».proof.Proof.KISeg4
import proofs.«116701_g5634997092996_cont_sun_m_497_4_alg».proof.Proof.KISeg5

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .region (reg5 m ρ) ]

/-- @main is the run of those segments. -/
theorem main_run (c : Dev nD) : main (F := F) c = Pipeline.Seg.run (segs m ρ) := (main_chain c).trans (by chain_rfl)

-- the launch theorem's implicit arguments are found by unifying its conclusion with this one
set_option backward.isDefEq.respectTransparency.types false in
/-- Every weakly fair execution of @main from memory `m` with zero counters terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m ρ c)
            ∗ ((∃ r, prngReg c r) ∗ ∃ W, owes (c : Thread nD τ) (0 : CellTallies nD τ sig Unit) W))
          ⊢ iprop((StableHlo.held (c : Thread nD τ) (Pipeline.ucRefs τ sig) (W10 m ρ c) ∗ ∃ r, prngReg c r)
            ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-! ## The arguments end as launched -/

/-- `main_arg0` reaches the end as launched: no host operation writes it, and a region reads it through an input window or not at all. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl

/-- `main_arg1` reaches the end as launched: no host operation writes it, and a region reads it through an input window or not at all. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_in m ρ c 0 rfl
    _ = W8 m ρ c (Proc.devRef .tc main_arg1) := W9_in m ρ c 0 rfl
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := StableHlo.after_of_writes_sub hostOps3 _ hostOps3_writes (by decide)
    _ = W4 m ρ c (Proc.devRef .tc main_arg1) := W5_in m ρ c 0 rfl
    _ = W3 m ρ c (Proc.devRef .tc main_arg1) := W4_in m ρ c 0 rfl
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` reaches the end as launched: no host operation writes it, and a region reads it through an input window or not at all. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_writes_sub hostOps4 _ hostOps4_writes (by decide)
    _ = W6 m ρ c (Proc.devRef .tc main_arg2) := W7_of_ne m ρ c main_arg2 (by decide)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it, and a region reads it through an input window or not at all. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_writes_sub hostOps4 _ hostOps4_writes (by decide)
    _ = W6 m ρ c (Proc.devRef .tc main_arg3) := W7_of_ne m ρ c main_arg3 (by decide)
    _ = W5 m ρ c (Proc.devRef .tc main_arg3) := StableHlo.after_of_writes_sub hostOps3 _ hostOps3_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c)⟩) (run_all m ρ)

end Cert.KernelIdeal.Frame

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibRealMatrix.lean ====
/-
  Arrays of extended reals that hold real matrices.

  At the exact instance a float array is a function from indices to extended reals.  An [M, N] array HOLDS the real
  matrix `a` when its entry (p, q) is the real number `a p q`.  Sums and products of such arrays hold the sum and
  the matrix product of the matrices they hold — an entrywise sum of reals is real, and a finite sum of products of
  reals is the real sum of products — and a transposed array holds the transposed matrix.  On real matrices the
  product is associative and distributes over sums, which it does not on extended reals at the infinities: this is
  how  (U Uᵀ + I Iᵀ) X  and  U (Uᵀ X) + I (Iᵀ X)  are seen to be one matrix.
-/
import Mathlib.Data.Matrix.Mul
import Mathlib.Data.EReal.Basic
import Idealize.ShloMosaic.Lib.ValueIdx
import Idealize.ShloMosaic.Lib.ValueLayout
import Idealize.ShloMosaic.Lib.Pipeline.Value
import Idealize.ShloMosaic.PureOps.Ideal.Laws
import proofs.«116701_g5634997092996_cont_sun_m_497_4_alg».proof.Proof.LibPlainDot
import proofs.«116701_g5634997092996_cont_sun_m_497_4_alg».proof.Proof.LibDotForms

noncomputable section

open scoped BigOperators

namespace Cert.RealMatrix

open Idealize.ShloMosaic Idealize.ShloMosaic.ValueIdx

variable {M K N : Nat}

/-- The [M, N] array `A` holds the real matrix `a`: its entry (p, q) is the real number `a p q`. -/
def Holds (A : (⟨2, ![M, N]⟩ : Shape).Idx → EReal) (a : Matrix (Fin M) (Fin N) ℝ) : Prop :=
  ∀ (p : Fin M) (q : Fin N), A (ix2 p q) = ((a p q : ℝ) : EReal)

/-- Two arrays that hold one matrix are equal. -/
theorem Holds.ext {A B : (⟨2, ![M, N]⟩ : Shape).Idx → EReal} {a : Matrix (Fin M) (Fin N) ℝ}
    (hA : Holds A a) (hB : Holds B a) : A = B :=
  funext fun j => by
    obtain ⟨p, q, rfl⟩ : ∃ (p : Fin M) (q : Fin N), j = ix2 p q := ⟨j 0, j 1, eq_ix2 j⟩
    exact (hA p q).trans (hB p q).symm

/-- An array all of whose entries are real holds the matrix of those reals. -/
theorem exists_holds (A : (⟨2, ![M, N]⟩ : Shape).Idx → EReal) (h : ∀ i, ∃ r : ℝ, A i = (r : EReal)) :
    ∃ a : Matrix (Fin M) (Fin N) ℝ, Holds A a :=
  ⟨fun p q => Classical.choose (h (ix2 p q)), fun p q => Classical.choose_spec (h (ix2 p q))⟩

/-- The image of a finite sum of reals is the sum of the images. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A row of one held matrix against a column of another: the sum of the entries' products is the entry of the
    matrix product. -/
theorem sum_mul_eq {A : (⟨2, ![M, K]⟩ : Shape).Idx → EReal} {B : (⟨2, ![K, N]⟩ : Shape).Idx → EReal}
    {a : Matrix (Fin M) (Fin K) ℝ} {b : Matrix (Fin K) (Fin N) ℝ} (hA : Holds A a) (hB : Holds B b) (p : Fin M) (q : Fin N) :
    ∑ i : Fin K, A (ix2 p i) * B (ix2 i q) = (((a * b) p q : ℝ) : EReal) := by
  rw [Matrix.mul_apply, coe_sum]
  refine Finset.sum_congr rfl fun i _ => ?_
  rw [hA, hB, EReal.coe_mul]

section Ops

variable {φ : FTy}

/-- The entrywise sum of two arrays holds the sum of the matrices. -/
theorem Holds.addf {A B : FVec Ideal ⟨2, ![M, N]⟩ φ} {a b : Matrix (Fin M) (Fin N) ℝ} (hA : Holds A a) (hB : Holds B b) :
    Holds (addf A B) (a + b) := fun p q => by
  rw [addf_apply, hA, hB, Matrix.add_apply, EReal.coe_add]

/-- A kernel's plain product into a zero accumulator holds the matrix product. -/
theorem Holds.matmul {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Idealize.ShloMosaic.matmul d prec A B (constant ⟨2, ![M, N]⟩ .f32 0x00000000#32)) (a * b) := fun p q =>
  (PlainDot.matmul_zero_apply hd prec A B p q).trans (sum_mul_eq hA hB p q)

/-- The host's plain product holds the matrix product. -/
theorem Holds.dotGeneral {d : DotDims ⟨2, ![M, K]⟩ ⟨2, ![K, N]⟩ ⟨2, ![M, N]⟩} (hd : PlainDot.IsPlain d) {φ₁ φ₂ : FTy}
    (prec : Option ContractPrecision) {A : FVec Ideal ⟨2, ![M, K]⟩ φ₁} {B : FVec Ideal ⟨2, ![K, N]⟩ φ₂}
    {a : Matrix (Fin M) (Fin K) ℝ} {b : Matrix (Fin K) (Fin N) ℝ} (hA : Holds A a) (hB : Holds B b) :
    Holds (Host.dotGeneral d prec A B) (a * b) := fun p q =>
  (PlainDot.dotGeneral_apply hd prec .single A B p q).trans (sum_mul_eq hA hB p q)

/-- A transposed array holds the transposed matrix. -/
theorem Holds.transpose {A : (⟨2, ![M, N]⟩ : Shape).Idx → EReal} {a : Matrix (Fin M) (Fin N) ℝ} (hA : Holds A a)
    (h : (⟨2, ![M, N]⟩ : Shape).Transposes [1, 0] ⟨2, ![N, M]⟩) :
    Holds (Idealize.ShloMosaic.transpose ⟨2, ![N, M]⟩ [1, 0] A h) a.transpose := fun p q => by
  rw [transpose_ix2_apply, hA, Matrix.transpose_apply]

/-- A kernel's product of an array with the transpose of another, into a zero accumulator, holds  a · bᵀ. -/
theorem Holds.matmul_abt {d : DotDims ⟨2, ![M, K]⟩ ⟨2, ![N, K]⟩ ⟨2, ![M, N]⟩} (hd : DotForms.IsABt d) {φ₁ φ₂ : FTy}
    (prec : Option ContractPrecision) {A : FVec Ideal ⟨2, ![M, K]⟩ φ₁} {B : FVec Ideal ⟨2, ![N, K]⟩ φ₂}
    {a : Matrix (Fin M) (Fin K) ℝ} {b : Matrix (Fin N) (Fin K) ℝ} (hA : Holds A a) (hB : Holds B b) :
    Holds (Idealize.ShloMosaic.matmul d prec A B (constant ⟨2, ![M, N]⟩ .f32 0x00000000#32)) (a * b.transpose) := fun p q => by
  rw [DotForms.abt_matmul_zero_apply hd prec A B p q, Matrix.mul_apply, coe_sum]
  refine Finset.sum_congr rfl fun i _ => ?_
  rw [hA, hB, EReal.coe_mul, Matrix.transpose_apply]

end Ops

/-! ## The algebra on real matrices -/

variable {H : Nat}

/-- One hypergraph step both ways: the Gram matrices applied to `x`, against the two-stage products. -/
theorem gram_mul (u i : Matrix (Fin M) (Fin H) ℝ) (x : Matrix (Fin M) (Fin N) ℝ) :
    (u * u.transpose + i * i.transpose) * x = u * (u.transpose * x) + i * (i.transpose * x) := by
  rw [Matrix.add_mul, Matrix.mul_assoc, Matrix.mul_assoc]

end Cert.RealMatrix

end
-- ==== Proof.Spec.lean ====
/-
  The mathematics of the two programs, stated once.

  A Chebyshev graph-convolution layer of order three with a dense operator `a`, features `x` and weights `t0, t1, t2` is
      x t0 + (a x) t1 + (2 a (a x) - x) t2 .
  The kernel pushes the weights inside, so that every pass over `a` multiplies a narrow matrix:
      x (t0 - t2) + a (x t1 + 2 a (x t2)) .
  On real matrices the two are one matrix: the product is associative and distributes over sums and differences
  (neither holds on extended reals at the infinities, which is why the inputs must be finite).
  The first layer is followed by the entrywise maximum with zero, the second by the row-wise log-softmax
      z q - max z - log (sum over j of exp (z j - max z)) .
-/
import Mathlib.Data.Matrix.Mul
import Mathlib.Data.EReal.Basic
import Mathlib.Data.Finset.Fold
import Mathlib.Tactic.NoncommRing
import Idealize.ShloMosaic.Lib.ValueIdx
import Idealize.ShloMosaic.PureOps.Ideal
import proofs.«116701_g5634997092996_cont_sun_m_497_4_alg».proof.Proof.LibRealMatrix

noncomputable section

open scoped BigOperators

namespace Cert.Gcn

open Idealize.ShloMosaic Idealize.ShloMosaic.ValueIdx Cert.RealMatrix

variable {n d h : Nat}

/-- One layer as the kernel arranges it. -/
def layerK (x : Matrix (Fin n) (Fin d) ℝ) (a : Matrix (Fin n) (Fin n) ℝ) (t0 t1 t2 : Matrix (Fin d) (Fin h) ℝ) :
    Matrix (Fin n) (Fin h) ℝ :=
  x * (t0 - t2) + a * (x * t1 + (2 : ℝ) • (a * (x * t2)))

/-- One layer as the reference computes it. -/
def layerR (x : Matrix (Fin n) (Fin d) ℝ) (a : Matrix (Fin n) (Fin n) ℝ) (t0 t1 t2 : Matrix (Fin d) (Fin h) ℝ) :
    Matrix (Fin n) (Fin h) ℝ :=
  x * t0 + (a * x) * t1 + ((2 : ℝ) • (a * (a * x)) - x) * t2

/-- The two arrangements are one matrix. -/
theorem layer_eq (x : Matrix (Fin n) (Fin d) ℝ) (a : Matrix (Fin n) (Fin n) ℝ) (t0 t1 t2 : Matrix (Fin d) (Fin h) ℝ) :
    layerK x a t0 t1 t2 = layerR x a t0 t1 t2 := by
  unfold layerK layerR
  rw [Matrix.mul_sub, Matrix.mul_add, Matrix.mul_smul, Matrix.sub_mul, Matrix.smul_mul,
    Matrix.mul_assoc a x t1, Matrix.mul_assoc a (a * x) t2, Matrix.mul_assoc a x t2]
  abel

/-- The entrywise maximum with zero. -/
def relu (z : Matrix (Fin n) (Fin h) ℝ) : Matrix (Fin n) (Fin h) ℝ := fun p q => max (z p q) 0

/-- A [3, D, H] array holds three real D by H matrices, one per leading coordinate. -/
def Holds3 {D H : Nat} (T : (⟨3, ![3, D, H]⟩ : Shape).Idx → EReal) (t : Fin 3 → Matrix (Fin D) (Fin H) ℝ) : Prop :=
  ∀ (k : Fin 3) (i : Fin D) (j : Fin H), T (ix3 k i j) = ((t k i j : ℝ) : EReal)

/-! ## The two float constants the programs spell -/

/-- The word of 2.0 denotes the real number 2. -/
theorem ofBits_two : Ideal.ofBits .f32 0x40000000#32 = ((2 : ℝ) : EReal) := by
  simp [Ideal.ofBits, Ideal.ieee, -EReal.coe_mul]; norm_num

/-- The word of +0.0 denotes 0. -/
theorem ofBits_zero : Ideal.ofBits .f32 0x00000000#32 = 0 := by
  simp [Ideal.ofBits, Ideal.ieee]

/-! ## Stacked weights: three matrices side by side, and a product's column blocks -/

/-- Three D by H matrices side by side, as a matrix with N columns (N = 3 H at every use; columns past 3 H are zero). -/
def catCols {D H N : Nat} (w0 w1 w2 : Matrix (Fin D) (Fin H) ℝ) : Matrix (Fin D) (Fin N) ℝ := fun i j =>
  if h0 : j.val < H then w0 i ⟨j.val, h0⟩
  else if h1 : j.val < 2 * H then w1 i ⟨j.val - H, by omega⟩
  else if h2 : j.val < 3 * H then w2 i ⟨j.val - 2 * H, by omega⟩
  else 0

/-- Columns k H, …, k H + H - 1 of a matrix with N columns. -/
def colBlock {D H N : Nat} (k : Nat) (hk : (k + 1) * H ≤ N) (P : Matrix (Fin D) (Fin N) ℝ) : Matrix (Fin D) (Fin H) ℝ :=
  fun i j => P i ⟨k * H + j.val, by have := j.isLt; nlinarith⟩

/-- A column block of a product is the product with the column block. -/
theorem colBlock_mul {n D H N : Nat} (k : Nat) (hk : (k + 1) * H ≤ N) (x : Matrix (Fin n) (Fin D) ℝ) (w : Matrix (Fin D) (Fin N) ℝ) :
    colBlock k hk (x * w) = x * colBlock k hk w := by
  funext i j; simp only [colBlock, Matrix.mul_apply]

theorem colBlock_catCols_zero {D H N : Nat} (hN : (0 + 1) * H ≤ N) (w0 w1 w2 : Matrix (Fin D) (Fin H) ℝ) :
    colBlock 0 hN (catCols (N := N) w0 w1 w2) = w0 := by
  funext i j
  have hj := j.isLt
  simp only [colBlock, catCols, Nat.zero_mul, Nat.zero_add, hj, dite_true]

theorem colBlock_catCols_one {D H N : Nat} (hN : (1 + 1) * H ≤ N) (w0 w1 w2 : Matrix (Fin D) (Fin H) ℝ) :
    colBlock 1 hN (catCols (N := N) w0 w1 w2) = w1 := by
  funext i j
  have hj := j.isLt
  have h0 : ¬ (1 * H + j.val < H) := by omega
  have h1 : 1 * H + j.val < 2 * H := by omega
  simp only [colBlock, catCols, h0, h1, dite_true, dite_false]
  congr 1; exact Fin.ext (by simp only []; omega)

theorem colBlock_catCols_two {D H N : Nat} (hN : (2 + 1) * H ≤ N) (w0 w1 w2 : Matrix (Fin D) (Fin H) ℝ) :
    colBlock 2 hN (catCols (N := N) w0 w1 w2) = w2 := by
  funext i j
  have hj := j.isLt
  have h0 : ¬ (2 * H + j.val < H) := by omega
  have h1 : ¬ (2 * H + j.val < 2 * H) := by omega
  have h2 : 2 * H + j.val < 3 * H := by omega
  simp only [colBlock, catCols, h0, h1, h2, dite_true, dite_false]
  congr 1; exact Fin.ext (by simp only []; omega)

/-- The value both programs start a row's maximum from: the f32 word of minus infinity, never evaluated. -/
def negInf : EReal := Ideal.ofBits .f32 0xFF800000#32

/-- A row's maximum, folded from `negInf`. -/
def rowMax {C : Nat} (z : Fin C → EReal) : EReal := (Finset.univ : Finset (Fin C)).fold max negInf z

/-- The log-softmax of a row at column `q`. -/
def lsmRow {C : Nat} (z : Fin C → EReal) (q : Fin C) : EReal :=
  (z q - rowMax z) - Ideal.log (∑ j : Fin C, Ideal.exp (z j - rowMax z))

/-- Folding the maximum from `negInf` never ends below it. -/
theorem negInf_le_rowMax {C : Nat} (z : Fin C → EReal) : negInf ≤ rowMax z :=
  (Finset.le_fold_max _).mpr (Or.inl le_rfl)

end Cert.Gcn

end
-- ==== Proof.Val0.lean ====
/-
  Region 0's result as a whole array: the 1000-row blocks the grid points write back tile the [10000, 192] result, and
  block t holds the product of the t-th block of 1000 rows of the left array with the whole right array; so entry (p, q)
  of the result is the sum over l of left (p, l) · right (l, q), and the result holds the product of the matrices the
  two arrays hold.
-/
import proofs.«116701_g5634997092996_cont_sun_m_497_4_alg».proof.Proof.KIReg0
import proofs.«116701_g5634997092996_cont_sun_m_497_4_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Frame

open Idealize.ShloMosaic Idealize.ShloMosaic.TcCoe Idealize.ShloMosaic.ValueIdx Idealize.SL.Sem
open Idealize.ShloMosaic.Pipeline (Dat)
open Cert.KernelIdeal Cert.KernelIdeal.Gen Cert.RealMatrix Cert.Gcn

variable (V : (c : Dev nD) → (b : Ref sig .tc) → Buf (Elt Ideal) ((c : Thread nD τ).loc b))

/-- The region's left array (blocked by rows), right array (whole) and result (blocked by rows), as the region finds and leaves them. -/
abbrev in0_0 (c : Dev nD) : Vec Ideal S10000x128 .f32 := V c (Pipeline.arrRef spec0 0)
abbrev in0_1 (c : Dev nD) : Vec Ideal S128x192 .f32 := V c (Pipeline.arrRef spec0 1)
abbrev res0 (c : Dev nD) : Vec Ideal S10000x192 .f32 := (dat0 (F := Ideal) V c).arrAt 2 cfg0.N

/-- The body's whole-block loads and store start at the origin of their blocks. -/
theorem origin0 : (![0, 0] : Fin 2 → Nat) = fun _ => 0 := funext fun a => by fin_cases a <;> rfl

/-- The product of two arrays as one whole array: entry (p, q) is the sum over l of left (p, l) · right (l, q). -/
abbrev prod0 (a : Vec Ideal S10000x128 .f32) (b : Vec Ideal S128x192 .f32) : Vec Ideal S10000x192 .f32 :=
  fun j => ∑ l : Fin 128, a (ix2 (j 0) l) * b (ix2 l (j 1))

/-- The body's value at an entry of its block: a cast to the same shape and a change of format are the identity on
    extended reals, and the product into a zero accumulator is the sum of the entries' products. -/
theorem pay0_apply (x0 : Vec Ideal S1000x128 .f32) (x1 : Vec Ideal S128x192 .f32) (p' : Fin 1000) (q : Fin 192) :
    k0_pay1 x0 x1 (ix2 p' q) = ∑ l : Fin 128, x0 (ix2 p' l) * x1 (ix2 l q) := by
  unfold k0_pay1
  refine (PlainDot.matmul_zero_apply ⟨rfl, rfl, rfl, rfl, rfl, rfl⟩ none _ _ p' q).trans ?_
  simp only [truncf_apply, shapeCast_self]

/-- The printed index maps, decided over the grid: the left array's and the result's blocks are at block row t, block
    column 0; the right array's one block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them: entry (p', q) of the
    body's value is the sum over l of the left block's (p', l) times the right block's (l, q); the left block's row p'
    is the array's row 1000 t + p', which is the row of the result's block entry, and the right block is the array. -/
theorem flushed0_eq (c : Dev nD) (t : Fin cfg0.N) :
    (dat0 (F := Ideal) V c).flushed 2 t = ((cfg0.win 2).blk t).view.read (Elt Ideal) (prod0 (in0_0 V c) (in0_1 V c)) := by
  show (cfg0.win 2).cut (grid0.coords t) ((dat0 (F := Ideal) V c).after 2 t) = _
  rw [after0_2]
  unfold out0_2
  rw [View.canon_unit_zero origin0]
  simp only [View.ld_unit_zero (S := S1000x128) origin0, View.ld_unit_zero (S := S128x192) origin0]
  funext j
  obtain ⟨p', q, rfl⟩ : ∃ (p' : Fin 1000) (q : Fin 192), j = ix2 p' q := ⟨j 0, j 1, eq_ix2 (n0 := 1000) (n1 := 192) j⟩
  show k0_pay1 (iblk0 V c 0 t) (iblk0 V c 1 t) (ix2 p' q) = prod0 (in0_0 V c) (in0_1 V c) (((cfg0.win 2).blk t).view.emb (ix2 p' q))
  refine (pay0_apply _ _ p' q).trans ?_
  show ∑ l : Fin 128, in0_0 V c (((cfg0.win 0).blk t).view.emb (ix2 p' l)) * in0_1 V c (((cfg0.win 1).blk t).view.emb (ix2 l q))
    = ∑ l : Fin 128, in0_0 V c (ix2 ((((cfg0.win 2).blk t).view.emb (ix2 p' q)) 0) l) * in0_1 V c (ix2 l ((((cfg0.win 2).blk t).view.emb (ix2 p' q)) 1))
  obtain ⟨ea, eb, ec, ed, ee, ef⟩ := idx_facts0 t
  refine Finset.sum_congr rfl fun l _ => ?_
  have hleft : ((cfg0.win 0).blk t).view.emb (ix2 p' l) = ix2 ((((cfg0.win 2).blk t).view.emb (ix2 p' q)) 0) l := by
    funext a; apply Fin.ext
    match a with
    | ⟨0, _⟩ => show win0_0.index t (0 : Fin 2) * 1000 + 1 * p'.val = win0_2.index t (0 : Fin 2) * 1000 + 1 * p'.val; omega
    | ⟨1, _⟩ => show win0_0.index t (1 : Fin 2) * 128 + 1 * l.val = l.val; omega
  have hright : ((cfg0.win 1).blk t).view.emb (ix2 l q) = ix2 l ((((cfg0.win 2).blk t).view.emb (ix2 p' q)) 1) := by
    funext a; apply Fin.ext
    match a with
    | ⟨0, _⟩ => show win0_1.index t (0 : Fin 2) * 128 + 1 * l.val = l.val; omega
    | ⟨1, _⟩ => show win0_1.index t (1 : Fin 2) * 192 + 1 * q.val = win0_2.index t (1 : Fin 2) * 192 + 1 * q.val; omega
  exact congrArg₂ (fun x y => in0_0 V c x * in0_1 V c y) hleft hright

/-- An index of the result is in point t's block iff each coordinate is in the block's range on its axis. -/
theorem mem_blk0 (t : Fin cfg0.N) (i : S10000x192.Idx) :
    i ∈ ((cfg0.win 2).blk t).view.set ↔ ∀ a : Fin 2, win0_2.index t a * S1000x192.size a ≤ (i a).val ∧ (i a).val < win0_2.index t a * S1000x192.size a + S1000x192.size a := by
  show i ∈ ((View.whole main_v10).slice (win0_2.rect t)).set ↔ _
  rw [View.set_slice_whole, Rect.mem_set_unit]
  exact Iff.rfl

/-- Every index of the result is in the block of the point that its row's quotient by the block height names. -/
theorem covered0 (i : S10000x192.Idx) : ∃ t : Fin cfg0.N, (cfg0.win 2).flush t = true ∧ i ∈ ((cfg0.win 2).blk t).view.set := by
  have hrow : (i 0).val < 10000 := (i 0).isLt
  have hcol : (i 1).val < 192 := (i 1).isLt
  have hN : (i 0).val / 1000 < cfg0.N := by show (i 0).val / 1000 < grid0.N; rw [N_0]; omega
  obtain ⟨-, -, -, -, ee, ef⟩ := idx_facts0 ⟨(i 0).val / 1000, hN⟩
  have ee' : win0_2.index ⟨(i 0).val / 1000, hN⟩ (0 : Fin 2) = (i 0).val / 1000 := ee
  refine ⟨⟨(i 0).val / 1000, hN⟩, flush0_2 _, ?_⟩
  rw [mem_blk0]
  intro a
  match a with
  | ⟨0, _⟩ => show win0_2.index ⟨(i 0).val / 1000, hN⟩ (0 : Fin 2) * 1000 ≤ (i 0).val ∧ (i 0).val < win0_2.index ⟨(i 0).val / 1000, hN⟩ (0 : Fin 2) * 1000 + 1000; omega
  | ⟨1, _⟩ => show win0_2.index ⟨(i 0).val / 1000, hN⟩ (1 : Fin 2) * 192 ≤ (i 1).val ∧ (i 1).val < win0_2.index ⟨(i 0).val / 1000, hN⟩ (1 : Fin 2) * 192 + 192; omega

/-- The result after the run is the product of the arrays as the region finds them. -/
theorem res0_eq (c : Dev nD) : res0 V c = prod0 (in0_0 V c) (in0_1 V c) :=
  (dat0 (F := Ideal) V c).arrAt_eq_of_cover 2 (prod0 (in0_0 V c) (in0_1 V c)) (fun t _ => flushed0_eq V c t) covered0

/-- Entry (p, q) of the result. -/
theorem final0 (c : Dev nD) (p : Fin 10000) (q : Fin 192) :
    res0 V c (ix2 p q) = ∑ l : Fin 128, in0_0 V c (ix2 p l) * in0_1 V c (ix2 l q) := by
  rw [res0_eq]

/-- The result holds the product of the matrices the two arrays hold. -/
theorem holds0 (c : Dev nD) {a : Matrix (Fin 10000) (Fin 128) ℝ} {w : Matrix (Fin 128) (Fin 192) ℝ}
    (ha : Holds (in0_0 V c) a) (hw : Holds (in0_1 V c) w) : Holds (res0 V c) (a * w) := fun p q =>
  (final0 V c p q).trans (sum_mul_eq ha hw p q)

end Cert.KernelIdeal.Frame

end
-- ==== Proof.Val2.lean ====
/-
  Region 2's result as a whole array: entry (p, q) is the maximum with zero of  bias (p, q) + sum over l of
  op (p, l) · (m1 (l, q) + 2 · m2 (l, q)).
-/
import proofs.«116701_g5634997092996_cont_sun_m_497_4_alg».proof.Proof.KIReg2
import proofs.«116701_g5634997092996_cont_sun_m_497_4_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Frame

open Idealize.ShloMosaic Idealize.ShloMosaic.TcCoe Idealize.ShloMosaic.ValueIdx Idealize.SL.Sem
open Idealize.ShloMosaic.Pipeline (Dat)
open Cert.KernelIdeal Cert.KernelIdeal.Gen Cert.RealMatrix Cert.Gcn

/-! ## The body's arithmetic at an entry of its block -/

/-- Every rectangle the body loads or stores through starts at the origin. -/
theorem origin2 : (![0, 0] : Fin 2 → Nat) = fun _ => 0 := funext fun a => by fin_cases a <;> rfl

/-- The same-shape casts and the change of format are the identity, so the body's value is the maximum with the
    zero vector of the bias block plus the product of the operator block with  m1 + 2 m2 . -/
theorem pay2_eq (m1 m2 : Vec Ideal S10000x64 .f32) (op : Vec Ideal S400x10000 .f32) (bias : Vec Ideal S400x64 .f32) :
    k2_pay1 (F := Ideal) m1 m2 op bias
      = maximumf (addf bias (matmul (φ₁ := .f32) dot_S400x10000_S10000x64_S400x64_1_0_0_1_n_n none op
          (truncf .bf16 (addf m1 (mulf (broadcast S10000x64 (Scalar.ofBits .f32 0x40000000#32)) m2)) bitsLt_bf16_f32)
          (constant S400x64 .f32 0x00000000#32))) (broadcast S400x64 (Scalar.ofBits .f32 0x00000000#32)) := by
  unfold k2_pay1
  simp only [shapeCast_self]

/-- Entry (p', q) of the body's value: the maximum with zero of the bias entry plus the row of the operator block
    against column q of  m1 + 2 m2 . -/
theorem pay2_apply (m1 m2 : Vec Ideal S10000x64 .f32) (op : Vec Ideal S400x10000 .f32) (bias : Vec Ideal S400x64 .f32)
    (p' : Fin 400) (q : Fin 64) :
    k2_pay1 (F := Ideal) m1 m2 op bias (ix2 p' q)
      = max (bias (ix2 p' q) + ∑ l : Fin 10000, op (ix2 p' l) * (m1 (ix2 l q) + ((2 : ℝ) : EReal) * m2 (ix2 l q))) 0 := by
  rw [pay2_eq, maximumf_apply, addf_apply, broadcast_apply,
    PlainDot.matmul_zero_apply ⟨rfl, rfl, rfl, rfl, rfl, rfl⟩]
  rw [show Scalar.ofBits (F := Ideal) .f32 0x00000000#32 = (0 : EReal) from ofBits_zero]
  refine congrArg (fun z => max (bias (ix2 p' q) + z) (0 : EReal)) (Finset.sum_congr rfl fun l _ => ?_)
  rw [truncf_apply, addf_apply, mulf_apply, broadcast_apply]
  rw [show Scalar.ofBits (F := Ideal) .f32 0x40000000#32 = ((2 : ℝ) : EReal) from ofBits_two]

variable (V : (c : Dev nD) → (b : Ref sig .tc) → Buf (Elt Ideal) ((c : Thread nD τ).loc b))

abbrev in2_0 (c : Dev nD) : Vec Ideal S10000x10000 .f32 := V c (Pipeline.arrRef spec2 0)
abbrev in2_1 (c : Dev nD) : Vec Ideal S10000x64 .f32 := V c (Pipeline.arrRef spec2 1)
abbrev in2_2 (c : Dev nD) : Vec Ideal S10000x64 .f32 := V c (Pipeline.arrRef spec2 2)
abbrev in2_3 (c : Dev nD) : Vec Ideal S10000x64 .f32 := V c (Pipeline.arrRef spec2 3)
abbrev res2 (c : Dev nD) : Vec Ideal S10000x64 .f32 := (dat2 (F := Ideal) V c).arrAt 4 cfg2.N

/-! ## From the blocks to the array -/

/-- What the result array ends holding, entry by entry, as a function of the four arrays the region finds:
    the maximum with zero of the bias entry plus row p of the operator against column q of  m1 + 2 m2 . -/
def G2 (A : Vec Ideal S10000x10000 .f32) (M1 M2 B : Vec Ideal S10000x64 .f32) : Vec Ideal S10000x64 .f32 := fun i =>
  max (B i + ∑ l : Fin 10000, A (ix2 (i 0) l) * (M1 (ix2 l (i 1)) + ((2 : ℝ) : EReal) * M2 (ix2 l (i 1)))) 0

/-- The printed index maps, decided once over the grid: at point t the operator, bias and result windows are at
    row block t, column block 0; the two whole-array windows are at block (0, 0). -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Every row block of the result is some point's. -/
theorem rowBlock2 : ∀ r : Fin 25, ∃ t : Fin cfg2.N, win2_4.index t = ![r.val, 0] :=
  (by decide +kernel : ∀ r : Fin 25, ∃ t : Fin grid2.N, win2_4.index t = ![r.val, 0])

/-- What point t writes back is block t of `G2` of the four arrays. -/
theorem flushed2_eq (c : Dev nD) (t : Fin cfg2.N) :
    (dat2 (F := Ideal) V c).flushed 4 t
      = ((cfg2.win 4).blk t).view.read (Elt Ideal) (G2 (in2_0 V c) (in2_1 V c) (in2_2 V c) (in2_3 V c)) := by
  show (cfg2.win 4).cut (grid2.coords t) ((dat2 (F := Ideal) V c).after 4 t) = _
  rw [after2_4]
  unfold out2_4
  rw [View.canon_unit_zero origin2]
  simp only [View.ld_unit_zero (S := S400x10000) origin2, View.ld_unit_zero (S := S10000x64) origin2,
    View.ld_unit_zero (S := S400x64) origin2]
  obtain ⟨e00, e01, e10, e11, e20, e21, e30, e31, e40, e41⟩ := blocks2 t
  funext j
  obtain ⟨p', q, rfl⟩ : ∃ (p' : Fin 400) (q : Fin 64), j = ix2 p' q := ⟨j 0, j 1, eq_ix2 j⟩
  refine (pay2_apply (iblk2 V c 1 t) (iblk2 V c 2 t) (iblk2 V c 0 t) (iblk2 V c 3 t) p' q).trans ?_
  have h3 : iblk2 V c 3 t (ix2 p' q) = in2_3 V c (((cfg2.win 4).blk t).view.emb (ix2 p' q)) := by
    show in2_3 V c (((cfg2.win 3).blk t).view.emb (ix2 p' q)) = _
    refine congrArg (in2_3 V c) ?_
    funext a; apply Fin.ext
    match a with
    | ⟨0, _⟩ => show win2_3.index t (0 : Fin 2) * 400 + 1 * p'.val = win2_4.index t (0 : Fin 2) * 400 + 1 * p'.val; omega
    | ⟨1, _⟩ => show win2_3.index t (1 : Fin 2) * 64 + 1 * q.val = win2_4.index t (1 : Fin 2) * 64 + 1 * q.val; omega
  have h0 : ∀ l : Fin 10000, iblk2 V c 0 t (ix2 p' l)
      = in2_0 V c (ix2 ((((cfg2.win 4).blk t).view.emb (ix2 p' q)) 0) l) := by
    intro l
    show in2_0 V c (((cfg2.win 0).blk t).view.emb (ix2 p' l)) = _
    refine congrArg (in2_0 V c) ?_
    funext a; apply Fin.ext
    match a with
    | ⟨0, _⟩ => show win2_0.index t (0 : Fin 2) * 400 + 1 * p'.val = win2_4.index t (0 : Fin 2) * 400 + 1 * p'.val; omega
    | ⟨1, _⟩ => show win2_0.index t (1 : Fin 2) * 10000 + 1 * l.val = l.val; omega
  have h1 : ∀ l : Fin 10000, iblk2 V c 1 t (ix2 l q)
      = in2_1 V c (ix2 l ((((cfg2.win 4).blk t).view.emb (ix2 p' q)) 1)) := by
    intro l
    show in2_1 V c (((cfg2.win 1).blk t).view.emb (ix2 l q)) = _
    refine congrArg (in2_1 V c) ?_
    funext a; apply Fin.ext
    match a with
    | ⟨0, _⟩ => show win2_1.index t (0 : Fin 2) * 10000 + 1 * l.val = l.val; omega
    | ⟨1, _⟩ => show win2_1.index t (1 : Fin 2) * 64 + 1 * q.val = win2_4.index t (1 : Fin 2) * 64 + 1 * q.val; omega
  have h2 : ∀ l : Fin 10000, iblk2 V c 2 t (ix2 l q)
      = in2_2 V c (ix2 l ((((cfg2.win 4).blk t).view.emb (ix2 p' q)) 1)) := by
    intro l
    show in2_2 V c (((cfg2.win 2).blk t).view.emb (ix2 l q)) = _
    refine congrArg (in2_2 V c) ?_
    funext a; apply Fin.ext
    match a with
    | ⟨0, _⟩ => show win2_2.index t (0 : Fin 2) * 10000 + 1 * l.val = l.val; omega
    | ⟨1, _⟩ => show win2_2.index t (1 : Fin 2) * 64 + 1 * q.val = win2_4.index t (1 : Fin 2) * 64 + 1 * q.val; omega
  rw [h3]
  show _ = G2 (in2_0 V c) (in2_1 V c) (in2_2 V c) (in2_3 V c) (((cfg2.win 4).blk t).view.emb (ix2 p' q))
  unfold G2
  refine congrArg (fun z => max (in2_3 V c (((cfg2.win 4).blk t).view.emb (ix2 p' q)) + z) (0 : EReal))
    (Finset.sum_congr rfl fun l _ => ?_)
  rw [h0 l, h1 l, h2 l]

/-- An index of the result array is in point t's block iff each coordinate is in the block's range on its axis. -/
theorem mem_blk2 (t : Fin cfg2.N) (i : S10000x64.Idx) :
    i ∈ ((cfg2.win 4).blk t).view.set ↔ ∀ a : Fin 2, win2_4.index t a * S400x64.size a ≤ (i a).val
      ∧ (i a).val < win2_4.index t a * S400x64.size a + S400x64.size a := by
  show i ∈ ((View.whole main_v15).slice (win2_4.rect t)).set ↔ _
  rw [View.set_slice_whole, Rect.mem_set_unit]
  exact Iff.rfl

/-- The blocks tile the array: row r is in the block of the point at row block r / 400. -/
theorem cover2 (i : S10000x64.Idx) :
    ∃ t : Fin cfg2.N, (cfg2.win 4).flush t = true ∧ i ∈ ((cfg2.win 4).blk t).view.set := by
  have hi0 : (i 0).val < 10000 := (i 0).isLt
  have hi1 : (i 1).val < 64 := (i 1).isLt
  obtain ⟨t, ht⟩ := rowBlock2 ⟨(i 0).val / 400, by omega⟩
  have q0 : win2_4.index t (0 : Fin 2) = (i 0).val / 400 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 64 ≤ (i 1).val ∧ (i 1).val < win2_4.index t (1 : Fin 2) * 64 + 64; omega

/-- The result array after the run is `G2` of the four arrays the region finds. -/
theorem final2 (c : Dev nD) : res2 V c = G2 (in2_0 V c) (in2_1 V c) (in2_2 V c) (in2_3 V c) :=
  (dat2 (F := Ideal) V c).arrAt_eq_of_cover 4 (G2 (in2_0 V c) (in2_1 V c) (in2_2 V c) (in2_3 V c))
    (fun t _ => flushed2_eq V c t) cover2

/-- The result holds  relu (b + a (s + 2 u))  when the four arrays hold a, s, u, b. -/
theorem holds2 (c : Dev nD) {a : Matrix (Fin 10000) (Fin 10000) ℝ} {s u b : Matrix (Fin 10000) (Fin 64) ℝ}
    (ha : Holds (in2_0 V c) a) (hs : Holds (in2_1 V c) s) (hu : Holds (in2_2 V c) u) (hb : Holds (in2_3 V c) b) :
    Holds (res2 V c) (relu (b + a * (s + (2 : ℝ) • u))) := by
  intro p q
  rw [final2]
  show max (in2_3 V c (ix2 p q) + ∑ l : Fin 10000, in2_0 V c (ix2 p l)
      * (in2_1 V c (ix2 l q) + ((2 : ℝ) : EReal) * in2_2 V c (ix2 l q))) 0 = _
  have hsum : ∑ l : Fin 10000, in2_0 V c (ix2 p l) * (in2_1 V c (ix2 l q) + ((2 : ℝ) : EReal) * in2_2 V c (ix2 l q))
      = (((a * (s + (2 : ℝ) • u)) p q : ℝ) : EReal) := by
    rw [Matrix.mul_apply, coe_sum]
    refine Finset.sum_congr rfl fun l _ => ?_
    rw [ha p l, hs l q, hu l q, Matrix.add_apply, Matrix.smul_apply, smul_eq_mul, ← EReal.coe_mul, ← EReal.coe_add,
      ← EReal.coe_mul]
  rw [hsum, hb p q, ← EReal.coe_add, ← EReal.coe_zero, ← EReal.coe_strictMono.monotone.map_max]
  rfl

end Cert.KernelIdeal.Frame

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.Val5.lean ====
/-
  Region 5's result as a whole array: with  z (p, j) = bias (p, j) + sum over l of op (p, l) · (m1 (l, j) + 2 · m2 (l, j)),
  entry (p, q) of the result is the log-softmax of row p of z at column q.
-/
import proofs.«116701_g5634997092996_cont_sun_m_497_4_alg».proof.Proof.KIReg5
import proofs.«116701_g5634997092996_cont_sun_m_497_4_alg».proof.Proof.Spec
import proofs.«116701_g5634997092996_cont_sun_m_497_4_alg».proof.Proof.LibPlainDot
import proofs.«116701_g5634997092996_cont_sun_m_497_4_alg».proof.Proof.LibRowSum
import proofs.«116701_g5634997092996_cont_sun_m_497_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame

open Idealize.ShloMosaic Idealize.ShloMosaic.TcCoe Idealize.ShloMosaic.ValueIdx Idealize.SL.Sem
open Idealize.ShloMosaic.Pipeline (Dat)
open Cert.KernelIdeal Cert.KernelIdeal.Gen Cert.RealMatrix Cert.Gcn

/-! ## One block: the body's value at an entry -/

/-- A row's maximum as the body takes it (a reduction over the second axis from the word of minus infinity),
    read at a row: the fold of max over the row's entries. -/
theorem rowMax_read {m n : Nat} (src : FVec Ideal ⟨2, ![m, n]⟩ .f32)
    (h : (⟨2, ![m, n]⟩ : Shape).Reduces [1] (⟨1, ![m]⟩ : Shape)) (hφ : FKind.Formats .f32)
    (hacc : (0xFF800000#32 : BitVec FTy.f32.bits) = FKind.maximumf.neutral .f32 hφ) (p : Fin m) :
    multiReduction (F := Ideal) .maximumf [1] (⟨1, ![m]⟩ : Shape) src 0xFF800000#32 h hφ hacc (ix1 p)
      = rowMax (fun k : Fin n => src (ix2 p k)) := by
  refine (Ideal.multiReduction_maximumf_single src 0xFF800000#32 h hφ hacc (ix1 p)).trans ?_
  show (Finset.univ : Finset (Fin n)).fold max negInf (fun k => src (h.lift (ix1 p) k)) = _
  unfold rowMax
  congr 1
  funext k
  exact congrArg src (RowSum.lift_ix2 h p k)

/-- A 400-row block minus its rows' maxima. -/
def cen5 (z : FVec Ideal S400x40 .f32) : FVec Ideal S400x40 .f32 :=
  subf z (broadcastTo S400x40 (shapeCast S400x1
    (multiReduction (F := Ideal) .maximumf [1] S400 z 0xFF800000#32 reduces_S400x40_S400 (.inl rfl) rfl)
    shapeCasts_S400_S400x1) broadcasts_S400x1_S400x40)

theorem cen5_apply (z : FVec Ideal S400x40 .f32) (p : Fin 400) (k : Fin 40) :
    cen5 z (ix2 p k) = z (ix2 p k) - rowMax (fun j : Fin 40 => z (ix2 p j)) := by
  unfold cen5
  rw [subf_apply]
  congr 1
  refine (KeepdimsLayout.broadcastTo_a1_ab_apply _ _ p k).trans ?_
  refine (KeepdimsLayout.shapeCast_a_a1_apply _ _ p 0).trans ?_
  exact rowMax_read z _ _ _ p

/-- The body's last steps on a block z: subtract the rows' maxima, then the logarithm of the rows' sums of
    exponentials. -/
def tail5 (z : FVec Ideal S400x40 .f32) : FVec Ideal S400x40 .f32 :=
  subf (cen5 z) (broadcastTo S400x40 (log (shapeCast S400x1
    (multiReduction (F := Ideal) .add [1] S400 (exp (cen5 z)) 0x00000000#32 reduces_S400x40_S400 (.inl rfl) rfl)
    shapeCasts_S400_S400x1)) broadcasts_S400x1_S400x40)

/-- Those steps at an entry: the log-softmax of the entry's row. -/
theorem tail5_apply (z : FVec Ideal S400x40 .f32) (p : Fin 400) (q : Fin 40) :
    tail5 z (ix2 p q) = lsmRow (fun j : Fin 40 => z (ix2 p j)) q := by
  unfold tail5 lsmRow
  rw [subf_apply, cen5_apply]
  congr 1
  refine (KeepdimsLayout.broadcastTo_a1_ab_apply _ _ p q).trans ?_
  show Ideal.log (shapeCast S400x1 _ shapeCasts_S400_S400x1 (ix2 p (0 : Fin 1))) = _
  congr 1
  refine (KeepdimsLayout.shapeCast_a_a1_apply _ _ p 0).trans ?_
  refine (RowSum.multiReduction_apply _ _ _ _ _ p).trans ?_
  refine Finset.sum_congr rfl fun k _ => ?_
  show Ideal.exp (cen5 z (ix2 p k)) = _
  rw [cen5_apply]

/-- The block before the softmax: the bias block plus the operator block times (m1 + 2 m2). -/
def pre5 (v0 v2 : FVec Ideal S10000x40 .f32) (v8 : FVec Ideal S400x10000 .f32) (v10 : FVec Ideal S400x40 .f32) :
    FVec Ideal S400x40 .f32 :=
  addf (shapeCast S400x40 v10 shapeCasts_S400x40_S400x40)
    (matmul dot_S400x10000_S10000x40_S400x40_1_0_0_1_n_n none v8
      (truncf .bf16 (addf (shapeCast S10000x40 v0 shapeCasts_S10000x40_S10000x40)
        (mulf (broadcast S10000x40 (Scalar.ofBits .f32 0x40000000#32)) (shapeCast S10000x40 v2 shapeCasts_S10000x40_S10000x40)))
        bitsLt_bf16_f32)
      (constant S400x40 .f32 0x00000000#32))

theorem pay5_eq (v0 v2 : Vec Ideal S10000x40 .f32) (v8 : Vec Ideal S400x10000 .f32) (v10 : Vec Ideal S400x40 .f32) :
    k5_pay1 v0 v2 v8 v10 = tail5 (pre5 v0 v2 v8 v10) := rfl

theorem pre5_apply (v0 v2 : FVec Ideal S10000x40 .f32) (v8 : FVec Ideal S400x10000 .f32) (v10 : FVec Ideal S400x40 .f32)
    (p : Fin 400) (j : Fin 40) :
    pre5 v0 v2 v8 v10 (ix2 p j)
      = v10 (ix2 p j) + ∑ l : Fin 10000, v8 (ix2 p l) * (v0 (ix2 l j) + Ideal.ofBits .f32 0x40000000#32 * v2 (ix2 l j)) := by
  unfold pre5
  rw [shapeCast_self, shapeCast_self, shapeCast_self, addf_apply]
  congr 1
  refine (PlainDot.matmul_zero_apply ⟨rfl, rfl, rfl, rfl, rfl, rfl⟩ none v8 _ p j).trans ?_
  rfl

/-! ## The whole array -/

/-- Entry (p, q) of the array before the softmax: bias plus row p of the operator against column q of m1 + 2 m2. -/
def zent (A : S10000x10000.Idx → EReal) (M1 M2 B : S10000x40.Idx → EReal) (p : Fin 10000) (q : Fin 40) : EReal :=
  B (ix2 p q) + ∑ l : Fin 10000, A (ix2 p l) * (M1 (ix2 l q) + Ideal.ofBits .f32 0x40000000#32 * M2 (ix2 l q))

/-- The array before the softmax. -/
def Z5 (A : S10000x10000.Idx → EReal) (M1 M2 B : S10000x40.Idx → EReal) : S10000x40.Idx → EReal :=
  fun i => zent A M1 M2 B (i 0) (i 1)

/-- Entry (p, q) of the row-wise log-softmax of a [10000, 40] array. -/
def lsmAt (Z : S10000x40.Idx → EReal) (p : Fin 10000) (q : Fin 40) : EReal :=
  lsmRow (fun j : Fin 40 => Z (ix2 p j)) q

/-- The row-wise log-softmax of a [10000, 40] array. -/
def G5 (Z : S10000x40.Idx → EReal) : S10000x40.Idx → EReal :=
  fun i => lsmAt Z (i 0) (i 1)

/-- On arrays that hold real matrices the array before the softmax holds  b + a (s + 2 u). -/
theorem Z5_holds {A : S10000x10000.Idx → EReal} {M1 M2 B : S10000x40.Idx → EReal}
    {a : Matrix (Fin 10000) (Fin 10000) ℝ} {s u b : Matrix (Fin 10000) (Fin 40) ℝ}
    (ha : Holds A a) (hs : Holds M1 s) (hu : Holds M2 u) (hb : Holds B b) :
    Holds (Z5 A M1 M2 B) (b + a * (s + (2 : ℝ) • u)) := fun p q => by
  show zent A M1 M2 B p q = _
  unfold zent
  rw [hb p q, Matrix.add_apply, EReal.coe_add, Matrix.mul_apply, coe_sum]
  refine congrArg (HAdd.hAdd _) ?_
  refine Finset.sum_congr rfl fun l _ => ?_
  rw [ha p l, hs l q, hu l q, ofBits_two, Matrix.add_apply, Matrix.smul_apply, smul_eq_mul, EReal.coe_mul,
    EReal.coe_add, EReal.coe_mul]

/-- One block's entry against the whole array's: when the block's rows are row P of the operator and of the
    bias, and the two narrow operands are read whole, the body's value at (p', q) is the log-softmax of row P. -/
theorem blk_lsm (x0 : Vec Ideal S400x10000 .f32) (x1 x2 : Vec Ideal S10000x40 .f32) (x3 : Vec Ideal S400x40 .f32)
    (A : S10000x10000.Idx → EReal) (M1 M2 B : S10000x40.Idx → EReal) (P : Fin 10000) (p' : Fin 400) (q : Fin 40)
    (h0 : ∀ l : Fin 10000, x0 (ix2 p' l) = A (ix2 P l))
    (h1 : ∀ (l : Fin 10000) (j : Fin 40), x1 (ix2 l j) = M1 (ix2 l j))
    (h2 : ∀ (l : Fin 10000) (j : Fin 40), x2 (ix2 l j) = M2 (ix2 l j))
    (h3 : ∀ j : Fin 40, x3 (ix2 p' j) = B (ix2 P j)) :
    k5_pay1 x1 x2 x0 x3 (ix2 p' q) = G5 (Z5 A M1 M2 B) (ix2 P q) := by
  refine (congrFun (pay5_eq x1 x2 x0 x3) (ix2 p' q)).trans ?_
  refine (tail5_apply _ p' q).trans ?_
  show lsmRow _ q = lsmAt (Z5 A M1 M2 B) P q
  unfold lsmAt
  congr 1
  funext j
  refine (pre5_apply x1 x2 x0 x3 p' j).trans ?_
  show _ = zent A M1 M2 B P j
  unfold zent
  rw [h3 j]
  refine congrArg (HAdd.hAdd _) ?_
  refine Finset.sum_congr rfl fun l _ => ?_
  rw [h0 l, h1 l j, h2 l j]

variable (V : (c : Dev nD) → (b : Ref sig .tc) → Buf (Elt Ideal) ((c : Thread nD τ).loc b))

abbrev in5_0 (c : Dev nD) : Vec Ideal S10000x10000 .f32 := V c (Pipeline.arrRef spec5 0)
abbrev in5_1 (c : Dev nD) : Vec Ideal S10000x40 .f32 := V c (Pipeline.arrRef spec5 1)
abbrev in5_2 (c : Dev nD) : Vec Ideal S10000x40 .f32 := V c (Pipeline.arrRef spec5 2)
abbrev in5_3 (c : Dev nD) : Vec Ideal S10000x40 .f32 := V c (Pipeline.arrRef spec5 3)
abbrev res5 (c : Dev nD) : Vec Ideal S10000x40 .f32 := (dat5 (F := Ideal) V c).arrAt 4 cfg5.N

/-- The input windows' blocks at a point, at their literal types. -/
abbrev blk5_0 (c : Dev nD) (t : Fin cfg5.N) : Vec Ideal S400x10000 .f32 := iblk5 (F := Ideal) V c 0 t
abbrev blk5_1 (c : Dev nD) (t : Fin cfg5.N) : Vec Ideal S10000x40 .f32 := iblk5 (F := Ideal) V c 1 t
abbrev blk5_2 (c : Dev nD) (t : Fin cfg5.N) : Vec Ideal S10000x40 .f32 := iblk5 (F := Ideal) V c 2 t
abbrev blk5_3 (c : Dev nD) (t : Fin cfg5.N) : Vec Ideal S400x40 .f32 := iblk5 (F := Ideal) V c 3 t

theorem hz5 : (![0, 0] : Fin 2 → Nat) = fun _ => 0 := funext fun a => by fin_cases a <;> rfl

/-- The printed index maps over the grid: the operator's, the bias's and the output's block row is the point, their
    block column zero; the two narrow operands stay at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row p' of point t's blocks is row 400 t + p' of the arrays. -/
def row5 (t : Fin cfg5.N) (p' : Fin 400) : Fin 10000 :=
  ⟨t.val * 400 + p'.val, by
    have h1 : t.val < grid5.N := t.isLt
    rw [N_5] at h1
    have h2 := p'.isLt
    omega⟩

theorem blk5_0_apply (c : Dev nD) (t : Fin cfg5.N) (p' : Fin 400) (l : Fin 10000) :
    blk5_0 V c t (ix2 p' l) = in5_0 V c (ix2 (row5 t p') l) := by
  obtain ⟨e0, e1, -⟩ := idx_facts5 t
  show in5_0 V c (((cfg5.win 0).blk t).view.emb (ix2 p' l)) = _
  refine congrArg (in5_0 V c) ?_
  funext a; apply Fin.ext
  match a with
  | ⟨0, _⟩ => show win5_0.index t (0 : Fin 2) * 400 + 1 * p'.val = t.val * 400 + p'.val; omega
  | ⟨1, _⟩ => show win5_0.index t (1 : Fin 2) * 10000 + 1 * l.val = l.val; omega

theorem blk5_1_apply (c : Dev nD) (t : Fin cfg5.N) (l : Fin 10000) (j : Fin 40) :
    blk5_1 V c t (ix2 l j) = in5_1 V c (ix2 l j) := by
  obtain ⟨-, -, e0, e1, -⟩ := idx_facts5 t
  show in5_1 V c (((cfg5.win 1).blk t).view.emb (ix2 l j)) = _
  refine congrArg (in5_1 V c) ?_
  funext a; apply Fin.ext
  match a with
  | ⟨0, _⟩ => show win5_1.index t (0 : Fin 2) * 10000 + 1 * l.val = l.val; omega
  | ⟨1, _⟩ => show win5_1.index t (1 : Fin 2) * 40 + 1 * j.val = j.val; omega

theorem blk5_2_apply (c : Dev nD) (t : Fin cfg5.N) (l : Fin 10000) (j : Fin 40) :
    blk5_2 V c t (ix2 l j) = in5_2 V c (ix2 l j) := by
  obtain ⟨-, -, -, -, e0, e1, -⟩ := idx_facts5 t
  show in5_2 V c (((cfg5.win 2).blk t).view.emb (ix2 l j)) = _
  refine congrArg (in5_2 V c) ?_
  funext a; apply Fin.ext
  match a with
  | ⟨0, _⟩ => show win5_2.index t (0 : Fin 2) * 10000 + 1 * l.val = l.val; omega
  | ⟨1, _⟩ => show win5_2.index t (1 : Fin 2) * 40 + 1 * j.val = j.val; omega

theorem blk5_3_apply (c : Dev nD) (t : Fin cfg5.N) (p' : Fin 400) (j : Fin 40) :
    blk5_3 V c t (ix2 p' j) = in5_3 V c (ix2 (row5 t p') j) := by
  obtain ⟨-, -, -, -, -, -, e0, e1, -⟩ := idx_facts5 t
  show in5_3 V c (((cfg5.win 3).blk t).view.emb (ix2 p' j)) = _
  refine congrArg (in5_3 V c) ?_
  funext a; apply Fin.ext
  match a with
  | ⟨0, _⟩ => show win5_3.index t (0 : Fin 2) * 400 + 1 * p'.val = t.val * 400 + p'.val; omega
  | ⟨1, _⟩ => show win5_3.index t (1 : Fin 2) * 40 + 1 * j.val = j.val; omega

/-- Where entry (p', q) of point t's output block sits in the result array. -/
theorem emb5_4 (t : Fin cfg5.N) (p' : Fin 400) (q : Fin 40) :
    ((cfg5.win 4).blk t).view.emb (ix2 p' q) = (ix2 (row5 t p') q : S10000x40.Idx) := by
  obtain ⟨-, -, -, -, -, -, -, -, e0, e1⟩ := idx_facts5 t
  funext a; apply Fin.ext
  match a with
  | ⟨0, _⟩ => show win5_4.index t (0 : Fin 2) * 400 + 1 * p'.val = t.val * 400 + p'.val; omega
  | ⟨1, _⟩ => show win5_4.index t (1 : Fin 2) * 40 + 1 * q.val = q.val; omega

/-- What point t writes back is block t of the row-wise log-softmax of the array before the softmax. -/
theorem flushed5_eq (c : Dev nD) (t : Fin cfg5.N) :
    (dat5 (F := Ideal) V c).flushed 4 t
      = ((cfg5.win 4).blk t).view.read (Elt Ideal) (G5 (Z5 (in5_0 V c) (in5_1 V c) (in5_2 V c) (in5_3 V c))) := by
  show (cfg5.win 4).cut (grid5.coords t) ((dat5 (F := Ideal) V c).after 4 t) = _
  rw [after5_4]
  unfold out5_4
  rw [View.canon_unit_zero hz5]
  simp only [View.ld_unit_zero (S := S400x10000) hz5, View.ld_unit_zero (S := S10000x40) hz5,
    View.ld_unit_zero (S := S400x40) hz5]
  funext j
  obtain ⟨p', q, rfl⟩ : ∃ (p' : Fin 400) (q : Fin 40), j = ix2 p' q := ⟨j 0, j 1, eq_ix2 j⟩
  show k5_pay1 (blk5_1 V c t) (blk5_2 V c t) (blk5_0 V c t) (blk5_3 V c t) (ix2 p' q)
    = G5 (Z5 (in5_0 V c) (in5_1 V c) (in5_2 V c) (in5_3 V c)) (((cfg5.win 4).blk t).view.emb (ix2 p' q))
  refine Eq.trans ?_ (congrArg (G5 (Z5 (in5_0 V c) (in5_1 V c) (in5_2 V c) (in5_3 V c))) (emb5_4 t p' q).symm)
  exact blk_lsm (blk5_0 V c t) (blk5_1 V c t) (blk5_2 V c t) (blk5_3 V c t) (in5_0 V c) (in5_1 V c) (in5_2 V c) (in5_3 V c)
    (row5 t p') p' q (blk5_0_apply V c t p') (blk5_1_apply V c t) (blk5_2_apply V c t) (blk5_3_apply V c t p')

/-- An index of the result array is in point t's block iff each coordinate is in the block's range on its axis. -/
theorem mem_blk5 (t : Fin cfg5.N) (i : S10000x40.Idx) :
    i ∈ ((cfg5.win 4).blk t).view.set ↔ ∀ a : Fin 2, win5_4.index t a * S400x40.size a ≤ (i a).val
      ∧ (i a).val < win5_4.index t a * S400x40.size a + S400x40.size a := by
  show i ∈ ((View.whole main_v31).slice (win5_4.rect t)).set ↔ _
  rw [View.set_slice_whole, Rect.mem_set_unit]
  exact Iff.rfl

/-- The 25 output blocks tile the result array: row r is in the block of point r / 400. -/
theorem cover5 (i : S10000x40.Idx) :
    ∃ t : Fin cfg5.N, (cfg5.win 4).flush t = true ∧ i ∈ ((cfg5.win 4).blk t).view.set := by
  have hi0 : (i 0).val < 10000 := (i 0).isLt
  have hi1 : (i 1).val < 40 := (i 1).isLt
  obtain ⟨t, ht⟩ : ∃ t : Fin cfg5.N, t.val = (i 0).val / 400 :=
    ⟨⟨(i 0).val / 400, by show _ < grid5.N; rw [N_5]; omega⟩, rfl⟩
  obtain ⟨-, -, -, -, -, -, -, -, e0, e1⟩ := idx_facts5 t
  refine ⟨t, flush5_4 t, ?_⟩
  rw [mem_blk5]
  intro a
  match a with
  | ⟨0, _⟩ =>
    show win5_4.index t (0 : Fin 2) * 400 ≤ (i 0).val ∧ (i 0).val < win5_4.index t (0 : Fin 2) * 400 + 400
    omega
  | ⟨1, _⟩ =>
    show win5_4.index t (1 : Fin 2) * 40 ≤ (i 1).val ∧ (i 1).val < win5_4.index t (1 : Fin 2) * 40 + 40
    omega

/-- There is an array Z holding  b + a (s + 2 u)  of which the result is the row-wise log-softmax. -/
theorem final5 (c : Dev nD) {a : Matrix (Fin 10000) (Fin 10000) ℝ} {s u b : Matrix (Fin 10000) (Fin 40) ℝ}
    (ha : Holds (in5_0 V c) a) (hs : Holds (in5_1 V c) s) (hu : Holds (in5_2 V c) u) (hb : Holds (in5_3 V c) b) :
    ∃ Z : Vec Ideal S10000x40 .f32, Holds Z (b + a * (s + (2 : ℝ) • u))
      ∧ ∀ (p : Fin 10000) (q : Fin 40), res5 V c (ix2 p q) = lsmRow (fun j => Z (ix2 p j)) q := by
  refine ⟨Z5 (in5_0 V c) (in5_1 V c) (in5_2 V c) (in5_3 V c), Z5_holds ha hs hu hb, fun p q => ?_⟩
  have h := (dat5 (F := Ideal) V c).arrAt_eq_of_cover 4 (G5 (Z5 (in5_0 V c) (in5_1 V c) (in5_2 V c) (in5_3 V c)))
    (fun t _ => flushed5_eq V c t) cover5
  show (dat5 (F := Ideal) V c).arrAt 4 cfg5.N (ix2 p q) = _
  rw [h]
  show lsmAt _ p q = _
  rfl

end Cert.KernelIdeal.Frame

end
-- ==== Proof.HostK.lean ====
/-
  The kernel program's four stretches of host operations, read as matrices. Before each projection the three weight
  matrices are cut out of the [3, D, H] array and set side by side as  [ t2 | t1 | t0 - t2 ];  after each projection the
  [10000, 3 H] product is cut into its three column blocks.
-/
import proofs.«116701_g5634997092996_cont_sun_m_497_4_alg».proof.Proof.Gen.KernelIdeal.Launch
import proofs.«116701_g5634997092996_cont_sun_m_497_4_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.RealMatrix Cert.Gcn

/-! ## An operation over three references -/

/-- An operation over a literal family of three references leaves, at its result, its function of the three
    references' contents, each read at its own reference. -/
private theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The layout operations read at an entry -/

section Layout

variable {α : Type} {D H N : Nat}

/-- Matrix `k` of a [3, D, H] array, cut out as a [1, D, H] slice and read as a [D, H] array: its entry (i, j) is the
    array's entry (k, i, j), since both sit at row-major position i H + j of the slice. -/
private theorem sliceCast_apply (o : Nat) (k : Fin 3) (hk : k.val = o)
    (T : (⟨3, ![3, D, H]⟩ : Shape).Idx → α)
    (hs : (⟨3, ![3, D, H]⟩ : Shape).Slices ![o, 0, 0] ⟨3, ![1, D, H]⟩)
    (hc : (⟨3, ![1, D, H]⟩ : Shape).ShapeCasts ⟨2, ![D, H]⟩) (i : Fin D) (j : Fin H) :
    shapeCast ⟨2, ![D, H]⟩ (extractStridedSlice ⟨3, ![1, D, H]⟩ ![o, 0, 0] T hs) hc (ix2 i j) = T (ix3 k i j) := by
  refine (shapeCast_apply _ hc (ix2 i j) (ix3 (0 : Fin 1) i j) ?_).trans ?_
  · rw [Shape.rowMajor_val_three, Shape.rowMajor_val_two]
    show ((0 * D + i.val) * H + j.val) = i.val * H + j.val
    rw [Nat.zero_mul, Nat.zero_add]
  · exact extractStridedSlice_apply ![o, 0, 0] T hs (ix3 0 i j) (ix3 k i j) (fun a => match a with
      | ⟨0, _⟩ => by show k.val = o + 0; omega
      | ⟨1, _⟩ => by show i.val = 0 + i.val; omega
      | ⟨2, _⟩ => by show j.val = 0 + j.val; omega)

/-- Columns o, …, o + H - 1 of a [D, N] array: entry (i, j) of the slice is the array's entry (i, o + j). -/
private theorem colSlice_apply (o : Nat) (P : (⟨2, ![D, N]⟩ : Shape).Idx → α)
    (hs : (⟨2, ![D, N]⟩ : Shape).Slices ![0, o] ⟨2, ![D, H]⟩) (i : Fin D) (j : Fin H) (q : Fin N) (hq : q.val = o + j.val) :
    extractStridedSlice ⟨2, ![D, H]⟩ ![0, o] P hs (ix2 i j) = P (ix2 i q) :=
  extractStridedSlice_apply ![0, o] P hs (ix2 i j) (ix2 i q) (fun a => match a with
    | ⟨0, _⟩ => by show i.val = 0 + i.val; omega
    | ⟨1, _⟩ => by show q.val = o + j.val; exact hq)

variable (x0 x1 x2 : (⟨2, ![D, H]⟩ : Shape).Idx → α)
    (h : Shape.Concatenates [(⟨2, ![D, H]⟩ : Shape), ⟨2, ![D, H]⟩, ⟨2, ![D, H]⟩] ⟨2, ![D, N]⟩ 1)
    (i : Fin D) (j : Fin N)

/-- Three [D, H] arrays side by side, read in the first block of columns. -/
private theorem cat3_apply_zero (hj : j.val < H) :
    concatenate ⟨2, ![D, N]⟩ 1 [⟨⟨2, ![D, H]⟩, x0⟩, ⟨⟨2, ![D, H]⟩, x1⟩, ⟨⟨2, ![D, H]⟩, x2⟩] h (ix2 i j) = x0 (ix2 i ⟨j.val, hj⟩) :=
  concatenate_apply_piece (t := ⟨2, ![D, N]⟩) 1 [⟨⟨2, ![D, H]⟩, x0⟩, ⟨⟨2, ![D, H]⟩, x1⟩, ⟨⟨2, ![D, H]⟩, x2⟩] h (ix2 i j) 0 (by show 0 < 3; omega) _ x0 rfl rfl 0 rfl (ix2 i ⟨j.val, hj⟩)
    (fun b => match b with
      | ⟨0, _⟩ => fun _ => rfl
      | ⟨1, _⟩ => fun hb => absurd rfl hb)
    (by show 0 + j.val = j.val; omega)

/-- Three [D, H] arrays side by side, read in the second block of columns. -/
private theorem cat3_apply_one (hj : H ≤ j.val) (hj' : j.val - H < H) :
    concatenate ⟨2, ![D, N]⟩ 1 [⟨⟨2, ![D, H]⟩, x0⟩, ⟨⟨2, ![D, H]⟩, x1⟩, ⟨⟨2, ![D, H]⟩, x2⟩] h (ix2 i j) = x1 (ix2 i ⟨j.val - H, hj'⟩) :=
  concatenate_apply_piece (t := ⟨2, ![D, N]⟩) 1 [⟨⟨2, ![D, H]⟩, x0⟩, ⟨⟨2, ![D, H]⟩, x1⟩, ⟨⟨2, ![D, H]⟩, x2⟩] h (ix2 i j) 1 (by show 1 < 3; omega) _ x1 rfl rfl H rfl (ix2 i ⟨j.val - H, hj'⟩)
    (fun b => match b with
      | ⟨0, _⟩ => fun _ => rfl
      | ⟨1, _⟩ => fun hb => absurd rfl hb)
    (by show H + (j.val - H) = j.val; omega)

/-- Three [D, H] arrays side by side, read in the third block of columns. -/
private theorem cat3_apply_two (hj : 2 * H ≤ j.val) (hj' : j.val - 2 * H < H) :
    concatenate ⟨2, ![D, N]⟩ 1 [⟨⟨2, ![D, H]⟩, x0⟩, ⟨⟨2, ![D, H]⟩, x1⟩, ⟨⟨2, ![D, H]⟩, x2⟩] h (ix2 i j) = x2 (ix2 i ⟨j.val - 2 * H, hj'⟩) :=
  concatenate_apply_piece (t := ⟨2, ![D, N]⟩) 1 [⟨⟨2, ![D, H]⟩, x0⟩, ⟨⟨2, ![D, H]⟩, x1⟩, ⟨⟨2, ![D, H]⟩, x2⟩] h (ix2 i j) 2 (by show 2 < 3; omega) _ x2 rfl rfl (H + (H + 0)) rfl (ix2 i ⟨j.val - 2 * H, hj'⟩)
    (fun b => match b with
      | ⟨0, _⟩ => fun _ => rfl
      | ⟨1, _⟩ => fun hb => absurd rfl hb)
    (by show H + (H + 0) + (j.val - 2 * H) = j.val; omega)

end Layout

/-! ## The stacked weights and the column blocks, for any sizes -/

section Stacked

variable {D H N : Nat}

/-- The three matrices of a [3, D, H] array of reals, cut out and set side by side as [ t2 | t1 | t0 - t2 ], hold the
    stacked matrix: in each block of columns the entry is one entry of the array, or the difference of two, and a
    difference of reals is real. -/
private theorem holds_stacked (hN : N = 3 * H) (T : (⟨3, ![3, D, H]⟩ : Shape).Idx → EReal) (t : Fin 3 → Matrix (Fin D) (Fin H) ℝ)
    (hT : Holds3 T t)
    (hs2 : (⟨3, ![3, D, H]⟩ : Shape).Slices ![2, 0, 0] ⟨3, ![1, D, H]⟩)
    (hs1 : (⟨3, ![3, D, H]⟩ : Shape).Slices ![1, 0, 0] ⟨3, ![1, D, H]⟩)
    (hs0 : (⟨3, ![3, D, H]⟩ : Shape).Slices ![0, 0, 0] ⟨3, ![1, D, H]⟩)
    (hc : (⟨3, ![1, D, H]⟩ : Shape).ShapeCasts ⟨2, ![D, H]⟩)
    (hcat : Shape.Concatenates [(⟨2, ![D, H]⟩ : Shape), ⟨2, ![D, H]⟩, ⟨2, ![D, H]⟩] ⟨2, ![D, N]⟩ 1) :
    Holds (concatenate ⟨2, ![D, N]⟩ 1
        [⟨⟨2, ![D, H]⟩, shapeCast ⟨2, ![D, H]⟩ (extractStridedSlice ⟨3, ![1, D, H]⟩ ![2, 0, 0] T hs2) hc⟩,
         ⟨⟨2, ![D, H]⟩, shapeCast ⟨2, ![D, H]⟩ (extractStridedSlice ⟨3, ![1, D, H]⟩ ![1, 0, 0] T hs1) hc⟩,
         ⟨⟨2, ![D, H]⟩, subf (F := Ideal) (s := ⟨2, ![D, H]⟩) (φ := .f32)
            (shapeCast ⟨2, ![D, H]⟩ (extractStridedSlice ⟨3, ![1, D, H]⟩ ![0, 0, 0] T hs0) hc)
            (shapeCast ⟨2, ![D, H]⟩ (extractStridedSlice ⟨3, ![1, D, H]⟩ ![2, 0, 0] T hs2) hc)⟩] hcat)
      (catCols (t 2) (t 1) (t 0 - t 2)) := by
  intro p q
  have hq := q.isLt
  by_cases h0 : q.val < H
  · refine (cat3_apply_zero _ _ _ hcat p q h0).trans ?_
    refine (sliceCast_apply 2 2 rfl T hs2 hc p ⟨q.val, h0⟩).trans ?_
    rw [hT 2 p ⟨q.val, h0⟩]
    simp only [catCols, h0, dite_true]
  · by_cases h1 : q.val < 2 * H
    · refine (cat3_apply_one _ _ _ hcat p q (by omega) (by omega)).trans ?_
      refine (sliceCast_apply 1 1 rfl T hs1 hc p ⟨q.val - H, by omega⟩).trans ?_
      rw [hT 1 p ⟨q.val - H, by omega⟩]
      simp only [catCols, h0, h1, dite_true, dite_false]
    · have h2 : q.val < 3 * H := by omega
      refine (cat3_apply_two _ _ _ hcat p q (by omega) (by omega)).trans ?_
      rw [subf_apply]
      rw [sliceCast_apply 0 0 rfl T hs0 hc p ⟨q.val - 2 * H, by omega⟩,
        sliceCast_apply 2 2 rfl T hs2 hc p ⟨q.val - 2 * H, by omega⟩,
        hT 0 p ⟨q.val - 2 * H, by omega⟩, hT 2 p ⟨q.val - 2 * H, by omega⟩, ← EReal.coe_sub]
      simp only [catCols, h0, h1, h2, dite_true, dite_false, Matrix.sub_apply]

/-- The column slices of a [D, N] array that holds a matrix hold the matrix's column blocks. -/
private theorem holds_colSlice (k : Nat) (hk : (k + 1) * H ≤ N) (o : Nat) (ho : o = k * H)
    (A : (⟨2, ![D, N]⟩ : Shape).Idx → EReal) (P : Matrix (Fin D) (Fin N) ℝ) (hA : Holds A P)
    (hs : (⟨2, ![D, N]⟩ : Shape).Slices ![0, o] ⟨2, ![D, H]⟩) :
    Holds (extractStridedSlice ⟨2, ![D, H]⟩ ![0, o] A hs) (colBlock k hk P) := by
  intro p q
  have hq := q.isLt
  have hlt : k * H + q.val < N := by nlinarith
  refine (colSlice_apply o A hs p q ⟨k * H + q.val, hlt⟩ (by show k * H + q.val = o + q.val; omega)).trans ?_
  exact hA p ⟨k * H + q.val, hlt⟩

end Stacked

/-! ## The four stretches -/

variable (W : Valuation τ sig (Elt Ideal))

/-- First layer's weights, stacked. -/
theorem host0_holds (t : Fin 3 → Matrix (Fin 128) (Fin 64) ℝ) (h : Holds3 (W main_arg2 : Vec Ideal S3x128x64 .f32) t) :
    Holds (StableHlo.after hostOps0 W main_v9 : Vec Ideal S128x192 .f32) (catCols (t 2) (t 1) (t 0 - t 2)) := by
  have e : (StableHlo.after hostOps0 W main_v9 : FVec Ideal S128x192 .f32) =
      concatenate S128x192 1
        [⟨S128x64, shapeCast S128x64 (extractStridedSlice S1x128x64 ![2, 0, 0] (W main_arg2 : FVec Ideal S3x128x64 .f32) slices_S3x128x64_S1x128x64_2_0_0) shapeCasts_S1x128x64_S128x64⟩,
         ⟨S128x64, shapeCast S128x64 (extractStridedSlice S1x128x64 ![1, 0, 0] (W main_arg2 : FVec Ideal S3x128x64 .f32) slices_S3x128x64_S1x128x64_1_0_0) shapeCasts_S1x128x64_S128x64⟩,
         ⟨S128x64, subf (F := Ideal) (s := S128x64) (φ := .f32)
            (shapeCast S128x64 (extractStridedSlice S1x128x64 ![0, 0, 0] (W main_arg2 : FVec Ideal S3x128x64 .f32) slices_S3x128x64_S1x128x64_0_0_0) shapeCasts_S1x128x64_S128x64)
            (shapeCast S128x64 (extractStridedSlice S1x128x64 ![2, 0, 0] (W main_arg2 : FVec Ideal S3x128x64 .f32) slices_S3x128x64_S1x128x64_2_0_0) shapeCasts_S1x128x64_S128x64)⟩]
        concatenates_S128x64_S128x64_S128x64_S128x192_d1 := by
    show StableHlo.after hostOps0 W (Proc.devRef .tc main_v9) = _
    simp only [after_cons, after_nil]
    rw [nary3_result]
    repeat (first
      | rw [unary_result] | rw [binary_result] | rw [reshape_result]
      | (rw [unary_result_ne]; rotate_left; decide)
      | (rw [binary_result_ne]; rotate_left; decide)
      | (rw [reshape_result_ne]; rotate_left; decide))
    rfl
  intro p q
  refine (congrFun e (ix2 p q)).trans ?_
  exact holds_stacked (D := 128) (H := 64) (N := 192) rfl _ t h _ _ _ _ _ p q

/-- First projection's column blocks. -/
theorem host1_holds (P : Matrix (Fin 10000) (Fin 192) ℝ) (h : Holds (W main_v10 : Vec Ideal S10000x192 .f32) P) :
    Holds (StableHlo.after hostOps1 W main_v11 : Vec Ideal S10000x64 .f32) (colBlock 0 (by norm_num) P)
    ∧ Holds (StableHlo.after hostOps1 W main_v12 : Vec Ideal S10000x64 .f32) (colBlock 1 (by norm_num) P)
    ∧ Holds (StableHlo.after hostOps1 W main_v13 : Vec Ideal S10000x64 .f32) (colBlock 2 (by norm_num) P) := by
  have e0 : (StableHlo.after hostOps1 W main_v11 : FVec Ideal S10000x64 .f32) =
      extractStridedSlice S10000x64 ![0, 0] (W main_v10 : FVec Ideal S10000x192 .f32) slices_S10000x192_S10000x64_0_0 := by
    show StableHlo.after hostOps1 W (Proc.devRef .tc main_v11) = _
    after_results
  have e1 : (StableHlo.after hostOps1 W main_v12 : FVec Ideal S10000x64 .f32) =
      extractStridedSlice S10000x64 ![0, 64] (W main_v10 : FVec Ideal S10000x192 .f32) slices_S10000x192_S10000x64_0_64 := by
    show StableHlo.after hostOps1 W (Proc.devRef .tc main_v12) = _
    after_results
  have e2 : (StableHlo.after hostOps1 W main_v13 : FVec Ideal S10000x64 .f32) =
      extractStridedSlice S10000x64 ![0, 128] (W main_v10 : FVec Ideal S10000x192 .f32) slices_S10000x192_S10000x64_0_128 := by
    show StableHlo.after hostOps1 W (Proc.devRef .tc main_v13) = _
    after_results
  refine ⟨fun p q => ?_, fun p q => ?_, fun p q => ?_⟩
  · exact (congrFun e0 (ix2 p q)).trans (holds_colSlice (D := 10000) (H := 64) (N := 192) 0 (by norm_num) 0 rfl _ P h _ p q)
  · exact (congrFun e1 (ix2 p q)).trans (holds_colSlice (D := 10000) (H := 64) (N := 192) 1 (by norm_num) 64 rfl _ P h _ p q)
  · exact (congrFun e2 (ix2 p q)).trans (holds_colSlice (D := 10000) (H := 64) (N := 192) 2 (by norm_num) 128 rfl _ P h _ p q)

/-- Second layer's weights, stacked. -/
theorem host3_holds (u : Fin 3 → Matrix (Fin 64) (Fin 40) ℝ) (h : Holds3 (W main_arg3 : Vec Ideal S3x64x40 .f32) u) :
    Holds (StableHlo.after hostOps3 W main_v25 : Vec Ideal S64x120 .f32) (catCols (u 2) (u 1) (u 0 - u 2)) := by
  have e : (StableHlo.after hostOps3 W main_v25 : FVec Ideal S64x120 .f32) =
      concatenate S64x120 1
        [⟨S64x40, shapeCast S64x40 (extractStridedSlice S1x64x40 ![2, 0, 0] (W main_arg3 : FVec Ideal S3x64x40 .f32) slices_S3x64x40_S1x64x40_2_0_0) shapeCasts_S1x64x40_S64x40⟩,
         ⟨S64x40, shapeCast S64x40 (extractStridedSlice S1x64x40 ![1, 0, 0] (W main_arg3 : FVec Ideal S3x64x40 .f32) slices_S3x64x40_S1x64x40_1_0_0) shapeCasts_S1x64x40_S64x40⟩,
         ⟨S64x40, subf (F := Ideal) (s := S64x40) (φ := .f32)
            (shapeCast S64x40 (extractStridedSlice S1x64x40 ![0, 0, 0] (W main_arg3 : FVec Ideal S3x64x40 .f32) slices_S3x64x40_S1x64x40_0_0_0) shapeCasts_S1x64x40_S64x40)
            (shapeCast S64x40 (extractStridedSlice S1x64x40 ![2, 0, 0] (W main_arg3 : FVec Ideal S3x64x40 .f32) slices_S3x64x40_S1x64x40_2_0_0) shapeCasts_S1x64x40_S64x40)⟩]
        concatenates_S64x40_S64x40_S64x40_S64x120_d1 := by
    show StableHlo.after hostOps3 W (Proc.devRef .tc main_v25) = _
    simp only [after_cons, after_nil]
    rw [nary3_result]
    repeat (first
      | rw [unary_result] | rw [binary_result] | rw [reshape_result]
      | (rw [unary_result_ne]; rotate_left; decide)
      | (rw [binary_result_ne]; rotate_left; decide)
      | (rw [reshape_result_ne]; rotate_left; decide))
    rfl
  intro p q
  refine (congrFun e (ix2 p q)).trans ?_
  exact holds_stacked (D := 64) (H := 40) (N := 120) rfl _ u h _ _ _ _ _ p q

/-- Second projection's column blocks. -/
theorem host4_holds (P : Matrix (Fin 10000) (Fin 120) ℝ) (h : Holds (W main_v26 : Vec Ideal S10000x120 .f32) P) :
    Holds (StableHlo.after hostOps4 W main_v27 : Vec Ideal S10000x40 .f32) (colBlock 0 (by norm_num) P)
    ∧ Holds (StableHlo.after hostOps4 W main_v28 : Vec Ideal S10000x40 .f32) (colBlock 1 (by norm_num) P)
    ∧ Holds (StableHlo.after hostOps4 W main_v29 : Vec Ideal S10000x40 .f32) (colBlock 2 (by norm_num) P) := by
  have e0 : (StableHlo.after hostOps4 W main_v27 : FVec Ideal S10000x40 .f32) =
      extractStridedSlice S10000x40 ![0, 0] (W main_v26 : FVec Ideal S10000x120 .f32) slices_S10000x120_S10000x40_0_0 := by
    show StableHlo.after hostOps4 W (Proc.devRef .tc main_v27) = _
    after_results
  have e1 : (StableHlo.after hostOps4 W main_v28 : FVec Ideal S10000x40 .f32) =
      extractStridedSlice S10000x40 ![0, 40] (W main_v26 : FVec Ideal S10000x120 .f32) slices_S10000x120_S10000x40_0_40 := by
    show StableHlo.after hostOps4 W (Proc.devRef .tc main_v28) = _
    after_results
  have e2 : (StableHlo.after hostOps4 W main_v29 : FVec Ideal S10000x40 .f32) =
      extractStridedSlice S10000x40 ![0, 80] (W main_v26 : FVec Ideal S10000x120 .f32) slices_S10000x120_S10000x40_0_80 := by
    show StableHlo.after hostOps4 W (Proc.devRef .tc main_v29) = _
    after_results
  refine ⟨fun p q => ?_, fun p q => ?_, fun p q => ?_⟩
  · exact (congrFun e0 (ix2 p q)).trans (holds_colSlice (D := 10000) (H := 40) (N := 120) 0 (by norm_num) 0 rfl _ P h _ p q)
  · exact (congrFun e1 (ix2 p q)).trans (holds_colSlice (D := 10000) (H := 40) (N := 120) 1 (by norm_num) 40 rfl _ P h _ p q)
  · exact (congrFun e2 (ix2 p q)).trans (holds_colSlice (D := 10000) (H := 40) (N := 120) 2 (by norm_num) 80 rfl _ P h _ p q)

end Cert.KernelIdeal.HostValue

end
-- ==== Proof.Chain.lean ====
/-
  The kernel program's result as a function of its arguments. In program order: the stacked first-layer weights
  [t2 | t1 | t0 - t2]; the projection x · [t2 | t1 | t0 - t2], whose column blocks are x t2, x t1 and x (t0 - t2); the pass
  a (x t2); the pass with bias and activation, relu (x (t0 - t2) + a (x t1 + 2 a (x t2))), which is the hidden matrix;
  the same four steps with the hidden matrix and the second weights; and the last pass ends in the row-wise log-softmax.
  Each region's entry arrays are found by walking back through the boundaries: a stretch of host operations leaves
  every buffer it does not write, a region every buffer that is not an output array of it.
-/
import proofs.«116701_g5634997092996_cont_sun_m_497_4_alg».proof.Proof.KIRun
import proofs.«116701_g5634997092996_cont_sun_m_497_4_alg».proof.Proof.Val0
import proofs.«116701_g5634997092996_cont_sun_m_497_4_alg».proof.Proof.Val1
import proofs.«116701_g5634997092996_cont_sun_m_497_4_alg».proof.Proof.Val2
import proofs.«116701_g5634997092996_cont_sun_m_497_4_alg».proof.Proof.Val3
import proofs.«116701_g5634997092996_cont_sun_m_497_4_alg».proof.Proof.Val4
import proofs.«116701_g5634997092996_cont_sun_m_497_4_alg».proof.Proof.Val5
import proofs.«116701_g5634997092996_cont_sun_m_497_4_alg».proof.Proof.HostK
import proofs.«116701_g5634997092996_cont_sun_m_497_4_alg».proof.Proof.Spec

set_option maxRecDepth 16384

noncomputable section

open scoped BigOperators

namespace Cert.KernelIdeal.Frame

open Idealize.ShloMosaic Idealize.ShloMosaic.TcCoe Idealize.ShloMosaic.ValueIdx Idealize.SL.Sem
open Idealize.ShloMosaic.Pipeline (Dat)
open Cert.KernelIdeal Cert.KernelIdeal.Gen Cert.RealMatrix Cert.Gcn

variable (m : (ℓ : Loc nD τ sig) → Buf (Elt Ideal) ℓ) (ρ : Dev nD → PrngReg)

/-! ## Which earlier value a region finds in each of its input arrays -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg1 (c : Dev nD) : W4 m ρ c (Proc.devRef .tc main_arg1) = W3 m ρ c (Proc.devRef .tc main_arg1) :=
  calc W4 m ρ c (Proc.devRef .tc main_arg1)
    _ = W3 m ρ c (Proc.devRef .tc main_arg1) := W4_in m ρ c 0 rfl

theorem W4_main_v12 (c : Dev nD) : W4 m ρ c (Proc.devRef .tc main_v12) = W3 m ρ c (Proc.devRef .tc main_v12) :=
  calc W4 m ρ c (Proc.devRef .tc main_v12)
    _ = W3 m ρ c (Proc.devRef .tc main_v12) := W4_of_ne m ρ c main_v12 (by decide)

theorem W4_main_v13 (c : Dev nD) : W4 m ρ c (Proc.devRef .tc main_v13) = W3 m ρ c (Proc.devRef .tc main_v13) :=
  calc W4 m ρ c (Proc.devRef .tc main_v13)
    _ = W3 m ρ c (Proc.devRef .tc main_v13) := W4_of_ne m ρ c main_v13 (by decide)

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_v15 (c : Dev nD) : W6 m ρ c (Proc.devRef .tc main_v15) = W5 m ρ c (Proc.devRef .tc main_v15) :=
  calc W6 m ρ c (Proc.devRef .tc main_v15)
    _ = W5 m ρ c (Proc.devRef .tc main_v15) := StableHlo.after_of_writes_sub hostOps3 _ hostOps3_writes (by decide)

theorem W8_main_arg1 (c : Dev nD) : W8 m ρ c (Proc.devRef .tc main_arg1) = W4 m ρ c (Proc.devRef .tc main_arg1) :=
  calc W8 m ρ c (Proc.devRef .tc main_arg1)
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := StableHlo.after_of_writes_sub hostOps3 _ hostOps3_writes (by decide)
    _ = W4 m ρ c (Proc.devRef .tc main_arg1) := W5_in m ρ c 0 rfl

theorem W9_main_arg1 (c : Dev nD) : W9 m ρ c (Proc.devRef .tc main_arg1) = W8 m ρ c (Proc.devRef .tc main_arg1) :=
  calc W9 m ρ c (Proc.devRef .tc main_arg1)
    _ = W8 m ρ c (Proc.devRef .tc main_arg1) := W9_in m ρ c 0 rfl

theorem W9_main_v28 (c : Dev nD) : W9 m ρ c (Proc.devRef .tc main_v28) = W8 m ρ c (Proc.devRef .tc main_v28) :=
  calc W9 m ρ c (Proc.devRef .tc main_v28)
    _ = W8 m ρ c (Proc.devRef .tc main_v28) := W9_of_ne m ρ c main_v28 (by decide)

theorem W9_main_v29 (c : Dev nD) : W9 m ρ c (Proc.devRef .tc main_v29) = W8 m ρ c (Proc.devRef .tc main_v29) :=
  calc W9 m ρ c (Proc.devRef .tc main_v29)
    _ = W8 m ρ c (Proc.devRef .tc main_v29) := W9_of_ne m ρ c main_v29 (by decide)

/-- An array equal to one that holds a matrix holds it. -/
theorem holds_of_eq {M N : Nat} {A B : (⟨2, ![M, N]⟩ : Shape).Idx → EReal} {a : Matrix (Fin M) (Fin N) ℝ}
    (e : A = B) (h : Holds B a) : Holds A a := e ▸ h

/-! ## The result -/

/-- From arguments holding x, a and the two weight triples, the kernel program's result is the row-wise log-softmax of
    an array that holds the second layer, in the kernel's arrangement, of the hidden matrix. -/
theorem kernel_value (c : Dev nD) {x : Matrix (Fin 10000) (Fin 128) ℝ} {a : Matrix (Fin 10000) (Fin 10000) ℝ}
    {t : Fin 3 → Matrix (Fin 128) (Fin 64) ℝ} {u : Fin 3 → Matrix (Fin 64) (Fin 40) ℝ}
    (hx : Holds (m ((c : Thread nD τ).loc main_arg0) : Vec Ideal S10000x128 .f32) x)
    (ha : Holds (m ((c : Thread nD τ).loc main_arg1) : Vec Ideal S10000x10000 .f32) a)
    (ht : Holds3 (m ((c : Thread nD τ).loc main_arg2) : Vec Ideal S3x128x64 .f32) t)
    (hu : Holds3 (m ((c : Thread nD τ).loc main_arg3) : Vec Ideal S3x64x40 .f32) u) :
    ∃ Z : Vec Ideal S10000x40 .f32,
      Holds Z (layerK (relu (layerK x a (t 0) (t 1) (t 2))) a (u 0) (u 1) (u 2))
      ∧ ∀ (p : Fin 10000) (q : Fin 40),
          (W10 m ρ c (Proc.devRef .tc main_v31) : Vec Ideal S10000x40 .f32) (ix2 p q) = lsmRow (fun j => Z (ix2 p j)) q := by
  -- the operator at the four passes
  have ha3 : Holds (W3 m ρ c (Proc.devRef .tc main_arg1) : Vec Ideal S10000x10000 .f32) a := holds_of_eq (W3_main_arg1 m ρ c) ha
  have ha4 : Holds (W4 m ρ c (Proc.devRef .tc main_arg1) : Vec Ideal S10000x10000 .f32) a := holds_of_eq (W4_main_arg1 m ρ c) ha3
  have ha8 : Holds (W8 m ρ c (Proc.devRef .tc main_arg1) : Vec Ideal S10000x10000 .f32) a := holds_of_eq (W8_main_arg1 m ρ c) ha4
  have ha9 : Holds (W9 m ρ c (Proc.devRef .tc main_arg1) : Vec Ideal S10000x10000 .f32) a := holds_of_eq (W9_main_arg1 m ρ c) ha8
  -- layer 1: the stacked weights, the projection and its column blocks
  have hw1 : Holds (W1 m ρ c (Proc.devRef .tc main_v9) : Vec Ideal S128x192 .f32) (catCols (t 2) (t 1) (t 0 - t 2)) :=
    HostValue.host0_holds (W0 m ρ c) t ht
  have hx1 : Holds (W1 m ρ c (Proc.devRef .tc main_arg0) : Vec Ideal S10000x128 .f32) x := holds_of_eq (W1_main_arg0 m ρ c) hx
  have hp1 : Holds (W2 m ρ c (Proc.devRef .tc main_v10) : Vec Ideal S10000x192 .f32) (x * catCols (t 2) (t 1) (t 0 - t 2)) :=
    holds_of_eq (W2_arr m ρ c 2) (holds0 (V1 m ρ) c hx1 hw1)
  obtain ⟨hu1, hs1, hb1⟩ := HostValue.host1_holds (W2 m ρ c) _ hp1
  rw [colBlock_mul, colBlock_catCols_zero] at hu1
  rw [colBlock_mul, colBlock_catCols_one] at hs1
  rw [colBlock_mul, colBlock_catCols_two] at hb1
  -- the first pass: a (x t2)
  have hq1 : Holds (W4 m ρ c (Proc.devRef .tc main_v14) : Vec Ideal S10000x64 .f32) (a * (x * t 2)) :=
    holds_of_eq (W4_arr m ρ c 2) (holds1 (V3 m ρ) c ha3 hu1)
  -- the second pass with the bias and the activation: the hidden matrix
  have hs1' : Holds (W4 m ρ c (Proc.devRef .tc main_v12) : Vec Ideal S10000x64 .f32) (x * t 1) := holds_of_eq (W4_main_v12 m ρ c) hs1
  have hb1' : Holds (W4 m ρ c (Proc.devRef .tc main_v13) : Vec Ideal S10000x64 .f32) (x * (t 0 - t 2)) := holds_of_eq (W4_main_v13 m ρ c) hb1
  have hh : Holds (W5 m ρ c (Proc.devRef .tc main_v15) : Vec Ideal S10000x64 .f32) (relu (layerK x a (t 0) (t 1) (t 2))) :=
    holds_of_eq (W5_arr m ρ c 4) (holds2 (V4 m ρ) c ha4 hs1' hq1 hb1')
  -- layer 2: the same with the hidden matrix
  have hu' : Holds3 (W5 m ρ c (Proc.devRef .tc main_arg3) : Vec Ideal S3x64x40 .f32) u := by
    rw [W5_main_arg3 m ρ c]; exact hu
  have hw2 : Holds (W6 m ρ c (Proc.devRef .tc main_v25) : Vec Ideal S64x120 .f32) (catCols (u 2) (u 1) (u 0 - u 2)) :=
    HostValue.host3_holds (W5 m ρ c) u hu'
  have hh6 : Holds (W6 m ρ c (Proc.devRef .tc main_v15) : Vec Ideal S10000x64 .f32) (relu (layerK x a (t 0) (t 1) (t 2))) :=
    holds_of_eq (W6_main_v15 m ρ c) hh
  have hp2 : Holds (W7 m ρ c (Proc.devRef .tc main_v26) : Vec Ideal S10000x120 .f32)
      (relu (layerK x a (t 0) (t 1) (t 2)) * catCols (u 2) (u 1) (u 0 - u 2)) :=
    holds_of_eq (W7_arr m ρ c 2) (holds3 (V6 m ρ) c hh6 hw2)
  obtain ⟨hu2, hs2, hb2⟩ := HostValue.host4_holds (W7 m ρ c) _ hp2
  rw [colBlock_mul, colBlock_catCols_zero] at hu2
  rw [colBlock_mul, colBlock_catCols_one] at hs2
  rw [colBlock_mul, colBlock_catCols_two] at hb2
  have hq2 : Holds (W9 m ρ c (Proc.devRef .tc main_v30) : Vec Ideal S10000x40 .f32) (a * (relu (layerK x a (t 0) (t 1) (t 2)) * u 2)) :=
    holds_of_eq (W9_arr m ρ c 2) (holds4 (V8 m ρ) c ha8 hu2)
  have hs2' : Holds (W9 m ρ c (Proc.devRef .tc main_v28) : Vec Ideal S10000x40 .f32) (relu (layerK x a (t 0) (t 1) (t 2)) * u 1) :=
    holds_of_eq (W9_main_v28 m ρ c) hs2
  have hb2' : Holds (W9 m ρ c (Proc.devRef .tc main_v29) : Vec Ideal S10000x40 .f32) (relu (layerK x a (t 0) (t 1) (t 2)) * (u 0 - u 2)) :=
    holds_of_eq (W9_main_v29 m ρ c) hb2
  obtain ⟨Z, hZ, hres⟩ := final5 (V9 m ρ) c ha9 hs2' hq2 hb2'
  refine ⟨Z, hZ, fun p q => ?_⟩
  rw [W10_arr m ρ c 4]
  exact hres p q

end Cert.KernelIdeal.Frame

end
-- ==== Proof.RefHolds.lean ====
/-
  The reference's two layers as matrices: from arrays holding x, a and the weights, its first pre-activation holds
  x t0 + (a x) t1 + (2 a (a x) - x) t2,  its hidden array the maximum of that with zero, and its second pre-activation the
  same expression of the hidden matrix and the second weights.
-/
import proofs.«116701_g5634997092996_cont_sun_m_497_4_alg».proof.Proof.RefRead
import proofs.«116701_g5634997092996_cont_sun_m_497_4_alg».proof.Proof.Spec

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.RealMatrix Cert.Gcn

/-! ## Entrywise operations on arrays that hold real matrices -/

section Closure

variable {M N : Nat}

/-- The entrywise difference of two arrays holds the difference of the matrices. -/
private theorem holds_subf {φ : FTy} {A B : FVec Ideal ⟨2, ![M, N]⟩ φ} {a b : Matrix (Fin M) (Fin N) ℝ}
    (hA : Holds A a) (hB : Holds B b) : Holds (subf A B) (a - b) := fun p q => by
  rw [subf_apply, hA, hB, Matrix.sub_apply, EReal.coe_sub]

/-- An array whose every entry is the number two, times an array, holds twice the matrix. -/
private theorem holds_two_mul {C A : FVec Ideal ⟨2, ![M, N]⟩ .f32} {a : Matrix (Fin M) (Fin N) ℝ}
    (hC : ∀ i, C i = Ideal.ofBits .f32 0x40000000#32) (hA : Holds A a) :
    Holds (mulf C A) ((2 : ℝ) • a) := fun p q => by
  rw [mulf_apply, hC, hA, ofBits_two, Matrix.smul_apply, smul_eq_mul, EReal.coe_mul]

/-- The entrywise maximum with an array of zeros holds the entrywise maximum with zero. -/
private theorem holds_max_zero {A Z : FVec Ideal ⟨2, ![M, N]⟩ .f32} {a : Matrix (Fin M) (Fin N) ℝ}
    (hZ : ∀ i, Z i = Ideal.ofBits .f32 0x00000000#32) (hA : Holds A a) :
    Holds (maximumf A Z) (relu a) := fun p q => by
  rw [maximumf_apply, hZ, hA, ofBits_zero]
  show max ((a p q : ℝ) : EReal) 0 = ((max (a p q) 0 : ℝ) : EReal)
  rw [EReal.coe_strictMono.monotone.map_max, EReal.coe_zero]

end Closure

/-! ## The broadcast constants -/

/-- The broadcast of the constant two reads two everywhere (first layer's width). -/
private theorem v9_eq (i : S10000x128.Idx) : val_main_v9 (F := Ideal) i = Ideal.ofBits .f32 0x40000000#32 := by
  rw [val_main_v9_apply]; rfl

/-- The broadcast of the constant two reads two everywhere (second layer's width). -/
private theorem v26_eq (i : S10000x64.Idx) : val_main_v26 (F := Ideal) i = Ideal.ofBits .f32 0x40000000#32 := by
  rw [val_main_v26_apply]; rfl

/-- The broadcast of the constant zero reads zero everywhere. -/
private theorem call0_v0_eq (i : S10000x64.Idx) : val_main_call0_v0 (F := Ideal) i = Ideal.ofBits .f32 0x00000000#32 := by
  rw [val_main_call0_v0_apply]; rfl

/-! ## The weight slices: leading coordinate k of a [3, D, H] array, reshaped to [D, H], holds the k-th matrix -/

section Slices

variable (x2 : (⟨S3x128x64, .f32⟩ : BufTy).Contents (Elt Ideal)) (x3 : (⟨S3x64x40, .f32⟩ : BufTy).Contents (Elt Ideal))
variable {t : Fin 3 → Matrix (Fin 128) (Fin 64) ℝ} {u : Fin 3 → Matrix (Fin 64) (Fin 40) ℝ}

private theorem v1_holds (ht : Holds3 x2 t) : Holds (val_main_v1 (F := Ideal) x2) (t 0) := fun i j => by
  rw [val_main_v1_apply, val_main_v0_apply]
  have hi := i.isLt
  have hj := j.isLt
  have e : idx_main_v0 (idx_main_v1 (ix2 i j)) = ix3 (0 : Fin 3) i j := funext fun a => Fin.ext (by
    match a with
    | ⟨0, _⟩ => rfl
    | ⟨1, _⟩ => show (i.val * 64 + j.val) / 64 % 128 = i.val; omega
    | ⟨2, _⟩ => show (i.val * 64 + j.val) % 64 = j.val; omega)
  rw [e]; exact ht 0 i j

private theorem v5_holds (ht : Holds3 x2 t) : Holds (val_main_v5 (F := Ideal) x2) (t 1) := fun i j => by
  rw [val_main_v5_apply, val_main_v4_apply]
  have hi := i.isLt
  have hj := j.isLt
  have e : idx_main_v4 (idx_main_v5 (ix2 i j)) = ix3 (1 : Fin 3) i j := funext fun a => Fin.ext (by
    match a with
    | ⟨0, _⟩ => rfl
    | ⟨1, _⟩ => show (i.val * 64 + j.val) / 64 % 128 = i.val; omega
    | ⟨2, _⟩ => show (i.val * 64 + j.val) % 64 = j.val; omega)
  rw [e]; exact ht 1 i j

private theorem v13_holds (ht : Holds3 x2 t) : Holds (val_main_v13 (F := Ideal) x2) (t 2) := fun i j => by
  rw [val_main_v13_apply, val_main_v12_apply]
  have hi := i.isLt
  have hj := j.isLt
  have e : idx_main_v12 (idx_main_v13 (ix2 i j)) = ix3 (2 : Fin 3) i j := funext fun a => Fin.ext (by
    match a with
    | ⟨0, _⟩ => rfl
    | ⟨1, _⟩ => show (i.val * 64 + j.val) / 64 % 128 = i.val; omega
    | ⟨2, _⟩ => show (i.val * 64 + j.val) % 64 = j.val; omega)
  rw [e]; exact ht 2 i j

private theorem v18_holds (hu : Holds3 x3 u) : Holds (val_main_v18 (F := Ideal) x3) (u 0) := fun i j => by
  rw [val_main_v18_apply, val_main_v17_apply]
  have hi := i.isLt
  have hj := j.isLt
  have e : idx_main_v17 (idx_main_v18 (ix2 i j)) = ix3 (0 : Fin 3) i j := funext fun a => Fin.ext (by
    match a with
    | ⟨0, _⟩ => rfl
    | ⟨1, _⟩ => show (i.val * 40 + j.val) / 40 % 64 = i.val; omega
    | ⟨2, _⟩ => show (i.val * 40 + j.val) % 40 = j.val; omega)
  rw [e]; exact hu 0 i j

private theorem v22_holds (hu : Holds3 x3 u) : Holds (val_main_v22 (F := Ideal) x3) (u 1) := fun i j => by
  rw [val_main_v22_apply, val_main_v21_apply]
  have hi := i.isLt
  have hj := j.isLt
  have e : idx_main_v21 (idx_main_v22 (ix2 i j)) = ix3 (1 : Fin 3) i j := funext fun a => Fin.ext (by
    match a with
    | ⟨0, _⟩ => rfl
    | ⟨1, _⟩ => show (i.val * 40 + j.val) / 40 % 64 = i.val; omega
    | ⟨2, _⟩ => show (i.val * 40 + j.val) % 40 = j.val; omega)
  rw [e]; exact hu 1 i j

private theorem v30_holds (hu : Holds3 x3 u) : Holds (val_main_v30 (F := Ideal) x3) (u 2) := fun i j => by
  rw [val_main_v30_apply, val_main_v29_apply]
  have hi := i.isLt
  have hj := j.isLt
  have e : idx_main_v29 (idx_main_v30 (ix2 i j)) = ix3 (2 : Fin 3) i j := funext fun a => Fin.ext (by
    match a with
    | ⟨0, _⟩ => rfl
    | ⟨1, _⟩ => show (i.val * 40 + j.val) / 40 % 64 = i.val; omega
    | ⟨2, _⟩ => show (i.val * 40 + j.val) % 40 = j.val; omega)
  rw [e]; exact hu 2 i j

end Slices

/-! ## One layer of the reference, over any arrays that hold its operands -/

section Layer

variable {n d h : Nat}

/-- The reference's layer: three products with the weights, two passes over the operator, the doubling, the difference and
    the two sums, each holding the matching real operation. -/
private theorem layer_holds {dW : DotDims ⟨2, ![n, d]⟩ ⟨2, ![d, h]⟩ ⟨2, ![n, h]⟩}
    {dA : DotDims ⟨2, ![n, n]⟩ ⟨2, ![n, d]⟩ ⟨2, ![n, d]⟩} (hW : PlainDot.IsPlain dW) (hA : PlainDot.IsPlain dA)
    {X C : FVec Ideal ⟨2, ![n, d]⟩ .f32} {A : FVec Ideal ⟨2, ![n, n]⟩ .f32} {W0 W1 W2 : FVec Ideal ⟨2, ![d, h]⟩ .f32}
    {x : Matrix (Fin n) (Fin d) ℝ} {a : Matrix (Fin n) (Fin n) ℝ} {t0 t1 t2 : Matrix (Fin d) (Fin h) ℝ}
    (hx : Holds X x) (ha : Holds A a) (h0 : Holds W0 t0) (h1 : Holds W1 t1) (h2 : Holds W2 t2)
    (hC : ∀ i, C i = Ideal.ofBits .f32 0x40000000#32) :
    Holds (addf (addf (Host.dotGeneral dW none X W0) (Host.dotGeneral dW none (Host.dotGeneral dA none A X) W1))
        (Host.dotGeneral dW none (subf (mulf C (Host.dotGeneral dA none A (Host.dotGeneral dA none A X))) X) W2))
      (layerR x a t0 t1 t2) := by
  have hax : Holds (Host.dotGeneral dA none A X) (a * x) := Holds.dotGeneral hA none ha hx
  have haax : Holds (Host.dotGeneral dA none A (Host.dotGeneral dA none A X)) (a * (a * x)) := Holds.dotGeneral hA none ha hax
  exact Holds.addf (Holds.addf (Holds.dotGeneral hW none hx h0) (Holds.dotGeneral hW none hax h1))
    (Holds.dotGeneral hW none (holds_subf (holds_two_mul hC haax) hx) h2)

end Layer

variable (x0 : (⟨S10000x128, .f32⟩ : BufTy).Contents (Elt Ideal)) (x1 : (⟨S10000x10000, .f32⟩ : BufTy).Contents (Elt Ideal))
  (x2 : (⟨S3x128x64, .f32⟩ : BufTy).Contents (Elt Ideal)) (x3 : (⟨S3x64x40, .f32⟩ : BufTy).Contents (Elt Ideal))

variable {x : Matrix (Fin 10000) (Fin 128) ℝ} {a : Matrix (Fin 10000) (Fin 10000) ℝ}
  {t : Fin 3 → Matrix (Fin 128) (Fin 64) ℝ} {u : Fin 3 → Matrix (Fin 64) (Fin 40) ℝ}

/-- The first layer before its activation. -/
theorem z1_holds (hx : Holds x0 x) (ha : Holds x1 a) (ht : Holds3 x2 t) :
    Holds (val_main_v15 (F := Ideal) x0 x1 x2) (layerR x a (t 0) (t 1) (t 2)) :=
  layer_holds (dW := dot_S10000x128_S128x64_S10000x64_1_0_0_1_n_n) (dA := dot_S10000x10000_S10000x128_S10000x128_1_0_0_1_n_n)
    ⟨rfl, rfl, rfl, rfl, rfl, rfl⟩ ⟨rfl, rfl, rfl, rfl, rfl, rfl⟩ hx ha (v1_holds x2 ht) (v5_holds x2 ht) (v13_holds x2 ht) v9_eq

/-- The hidden array. -/
theorem h_holds (hx : Holds x0 x) (ha : Holds x1 a) (ht : Holds3 x2 t) :
    Holds (val_main_v16 (F := Ideal) x0 x1 x2) (relu (layerR x a (t 0) (t 1) (t 2))) :=
  holds_max_zero call0_v0_eq (z1_holds x0 x1 x2 hx ha ht)

/-- The second layer before the log-softmax. -/
theorem z2_holds (hx : Holds x0 x) (ha : Holds x1 a) (ht : Holds3 x2 t) (hu : Holds3 x3 u) :
    Holds (val_main_v32 (F := Ideal) x0 x1 x2 x3) (layerR (relu (layerR x a (t 0) (t 1) (t 2))) a (u 0) (u 1) (u 2)) :=
  layer_holds (dW := dot_S10000x64_S64x40_S10000x40_1_0_0_1_n_n) (dA := dot_S10000x10000_S10000x64_S10000x64_1_0_0_1_n_n)
    ⟨rfl, rfl, rfl, rfl, rfl, rfl⟩ ⟨rfl, rfl, rfl, rfl, rfl, rfl⟩ (h_holds x0 x1 x2 hx ha ht) ha (v18_holds x3 hu) (v22_holds x3 hu)
    (v30_holds x3 hu) v26_eq

end Cert.ReferenceIdeal.RefValue

end
-- ==== Proof.RefLsm.lean ====
/-
  The reference's last stage: its result at (p, q) is the log-softmax of row p of its second pre-activation at column q.

  The stage is the usual stable form: the row's maximum m (a maximum-reduction over the columns, started from minus
  infinity, then once more bounded below by minus infinity), the shifted row z - m, the sum of its exponentials
  (a sum-reduction started from zero), that sum's logarithm, and the difference of the two. Every step but the first
  reduction is read entry by entry; the first is a fold of a commutative, associative operation over the set of indices
  that drop to row p, and that set is the row's forty columns.
-/
import proofs.«116701_g5634997092996_cont_sun_m_497_4_alg».proof.Proof.RefRead
import proofs.«116701_g5634997092996_cont_sun_m_497_4_alg».proof.Proof.Spec
import Idealize.ShloMosaic.Lib.ReduceAll
import Idealize.ShloMosaic.PureOps.Reduce
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.RealMatrix Cert.Gcn

/-- Row p's index with column k put back on the reduced axis is (p, k). -/
private theorem lift_row (h : S10000x40.Reduces [1] S10000) (p : Fin 10000) (k : Fin (S10000x40.size 1)) :
    h.lift (ix1 p) k = ix2 p (⟨k.val, k.isLt⟩ : Fin 40) := by
  funext c
  apply Fin.ext
  match c with
  | ⟨0, _⟩ => rfl
  | ⟨1, _⟩ => rfl

/-- The maximum-reduction over the columns, started from minus infinity, is at row p the row's maximum. -/
private theorem reduce_max_row (y : FVec Ideal S10000x40 .f32) (p : Fin 10000) :
    Host.reduce FloatOps.maximumf y (val_main_call1_cst (F := Ideal)) reducesTo_S10000x40_S10000_d1 h_S_ (ix1 p)
      = rowMax (fun j : Fin 40 => y (ix2 p j)) := by
  have h : S10000x40.Reduces [1] S10000 := by decide
  rw [Host.reduce_eq_fold_single FloatOps.maximumf y _ reducesTo_S10000x40_S10000_d1 h h_S_]
  have hf : (y ∘ h.lift (ix1 p)) = fun k : Fin 40 => y (ix2 p k) := funext fun k => congrArg y (lift_row h p k)
  unfold rowMax negInf
  exact congrArg (fun f => Finset.fold max (Ideal.ofBits .f32 0xFF800000#32) f (Finset.univ : Finset (Fin 40))) hf

variable (x0 : (⟨S10000x128, .f32⟩ : BufTy).Contents (Elt Ideal)) (x1 : (⟨S10000x10000, .f32⟩ : BufTy).Contents (Elt Ideal))
  (x2 : (⟨S3x128x64, .f32⟩ : BufTy).Contents (Elt Ideal)) (x3 : (⟨S3x64x40, .f32⟩ : BufTy).Contents (Elt Ideal))

/-- The bounded row maximum at row p. -/
private theorem v2_row (p : Fin 10000) :
    val_main_call1_v2 (F := Ideal) x0 x1 x2 x3 (ix1 p)
      = rowMax (fun j : Fin 40 => val_main_v32 (F := Ideal) x0 x1 x2 x3 (ix2 p j)) := by
  rw [val_main_call1_v2_apply, val_main_call1_v1_apply, val_main_call1_cst_0_apply]
  unfold val_main_call1_v0
  rw [reduce_max_row]
  exact max_eq_right (negInf_le_rowMax _)

/-- The row maximum spread over the row. -/
private theorem v4_row (p : Fin 10000) (j : Fin 40) :
    val_main_call1_v4 (F := Ideal) x0 x1 x2 x3 (ix2 p j)
      = rowMax (fun j : Fin 40 => val_main_v32 (F := Ideal) x0 x1 x2 x3 (ix2 p j)) := by
  rw [val_main_call1_v4_apply, val_main_call1_v3_apply]
  have e : idx_main_call1_v3 (idx_main_call1_v4 (ix2 p j)) = ix1 p :=
    funext fun a => Fin.ext (by match a with | ⟨0, _⟩ => rfl)
  rw [e]
  exact v2_row x0 x1 x2 x3 p

/-- The shifted row. -/
private theorem v5_row (p : Fin 10000) (j : Fin 40) :
    val_main_call1_v5 (F := Ideal) x0 x1 x2 x3 (ix2 p j)
      = val_main_v32 (F := Ideal) x0 x1 x2 x3 (ix2 p j)
        - rowMax (fun j : Fin 40 => val_main_v32 (F := Ideal) x0 x1 x2 x3 (ix2 p j)) := by
  rw [val_main_call1_v5_apply, v4_row]
  rfl

/-- The sum of the shifted row's exponentials. -/
private theorem v7_row (p : Fin 10000) :
    val_main_call1_v7 (F := Ideal) x0 x1 x2 x3 (ix1 p)
      = ∑ j : Fin 40, Ideal.exp (val_main_v32 (F := Ideal) x0 x1 x2 x3 (ix2 p j)
          - rowMax (fun j : Fin 40 => val_main_v32 (F := Ideal) x0 x1 x2 x3 (ix2 p j))) := by
  rw [val_main_call1_v7_apply, val_main_call1_cst_1_apply]
  show Ideal.ofBits .f32 0x00000000#32 + _ = _
  rw [ofBits_zero, zero_add]
  refine Finset.sum_congr rfl fun k _ => ?_
  have e : idx_main_call1_v7 (ix1 p) k = ix2 p k :=
    funext fun a => Fin.ext (by match a with | ⟨0, _⟩ => rfl | ⟨1, _⟩ => rfl)
  rw [e, val_main_call1_v6_apply, v5_row]
  rfl

/-- The logarithm of that sum, spread over the row. -/
private theorem v10_row (p : Fin 10000) (q : Fin 40) :
    val_main_call1_v10 (F := Ideal) x0 x1 x2 x3 (ix2 p q)
      = Ideal.log (∑ j : Fin 40, Ideal.exp (val_main_v32 (F := Ideal) x0 x1 x2 x3 (ix2 p j)
          - rowMax (fun j : Fin 40 => val_main_v32 (F := Ideal) x0 x1 x2 x3 (ix2 p j)))) := by
  rw [val_main_call1_v10_apply, val_main_call1_v9_apply, val_main_call1_v8_apply]
  have e : idx_main_call1_v8 (idx_main_call1_v10 (ix2 p q)) = ix1 p :=
    funext fun a => Fin.ext (by match a with | ⟨0, _⟩ => rfl)
  rw [e, v7_row]
  rfl

/-- The reference's result, entry by entry, from its second pre-activation. -/
theorem out_eq (p : Fin 10000) (q : Fin 40) :
    val_main_v33 (F := Ideal) x0 x1 x2 x3 (ix2 p q) = lsmRow (fun j => val_main_v32 (F := Ideal) x0 x1 x2 x3 (ix2 p j)) q := by
  rw [val_main_v33_apply, v5_row, v10_row]
  rfl

end Cert.ReferenceIdeal.RefValue

end
-- ==== Proof.Finite.lean ====
/-
  From the precondition to real numbers: when the printed finiteness test of the four argument arrays is true, every
  entry of every array is a real number (neither infinity).
-/
import proofs.«116701_g5634997092996_cont_sun_m_497_4_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The scalar shape has one index. -/
private instance : Subsingleton Cert.Pre_finite_inputs.S_.Idx := ⟨fun a b => funext fun d => d.elim0⟩

/-- The pattern 0x7F800000 denotes +∞. -/
private theorem ofBits_inf : Ideal.ofBits .f32 0x7F800000#32 = (⊤ : EReal) := by
  simp [Ideal.ofBits, Ideal.ieee]

/-- An extended real whose absolute value compares below +∞ is a real number. -/
private theorem real_of_abs_lt (x : Ideal .f32)
    (h : FloatOps.cmpf (F := Ideal) .olt (FloatOps.hostAbsf x) (Ideal.ofBits .f32 0x7F800000#32) = 1#1) :
    ∃ r : ℝ, x = (r : EReal) := by
  rw [ofBits_inf] at h
  change Ideal.cmp .olt (max x (-x)) ⊤ = 1#1 at h
  induction x using EReal.rec with
  | bot => simp [Ideal.cmp] at h
  | coe r => exact ⟨r, rfl⟩
  | top => simp [Ideal.cmp] at h

/-- One array: when every entry's absolute value compares below the broadcast +∞, every entry is real. -/
private theorem real_of_all {s : Shape} (hb : Cert.Pre_finite_inputs.S_.BroadcastsInDim s (![] : Fin 0 → Fin s.rank))
    (a : FVec Ideal s .f32) (i : s.Idx)
    (h : cmpf .olt (Host.absf a)
      (broadcastInDim s ![] hb (constant (F := Ideal) Cert.Pre_finite_inputs.S_ .f32 0x7F800000#32)) i = 1#1) :
    ∃ r : ℝ, a i = (r : EReal) :=
  real_of_abs_lt (a i) h

/-- Every entry of the four arrays is real when the finiteness test holds. -/
theorem real_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S3x128x64 .f32) (a3 : FVec Ideal Cert.Pre_finite_inputs.S3x64x40 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_all _ a0 i (Host.reduce_andi_all _ _ _ _ _ h0' i)
  · exact real_of_all _ a1 i (Host.reduce_andi_all _ _ _ _ _ h1 i)
  · exact real_of_all _ a2 i (Host.reduce_andi_all _ _ _ _ _ h2 i)
  · exact real_of_all _ a3 i (Host.reduce_andi_all _ _ _ _ _ h3 i)

end Cert.Finite

end
-- ==== Proof.Bridge.lean ====
/-
  The two programs' results are one array. Under the finiteness precondition every entry of the four arguments is a
  real number, so the arguments hold real matrices x, a and two weight triples. The kernel program's result is the
  row-wise log-softmax of an array holding the second layer, in the kernel's arrangement, of the hidden matrix
  relu (first layer, kernel's arrangement); the reference's result is the row-wise log-softmax of an array holding
  the same in the reference's arrangement. The two arrangements of a layer are one matrix, so the two arrays
  are equal, and so are their log-softmaxes.
-/
import proofs.«116701_g5634997092996_cont_sun_m_497_4_alg».proof.Proof.Chain
import proofs.«116701_g5634997092996_cont_sun_m_497_4_alg».proof.Proof.RefRead
import proofs.«116701_g5634997092996_cont_sun_m_497_4_alg».proof.Proof.RefHolds
import proofs.«116701_g5634997092996_cont_sun_m_497_4_alg».proof.Proof.RefLsm
import proofs.«116701_g5634997092996_cont_sun_m_497_4_alg».proof.Proof.Finite
import proofs.«116701_g5634997092996_cont_sun_m_497_4_alg».proof.Proof.Spec
import proofs.«116701_g5634997092996_cont_sun_m_497_4_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.RealMatrix Cert.Gcn

/-- A [3, D, H] array all of whose entries are real holds the three matrices of those reals. -/
theorem exists_holds3 {D H : Nat} (T : (⟨3, ![3, D, H]⟩ : Shape).Idx → EReal) (h : ∀ i, ∃ r : ℝ, T i = (r : EReal)) :
    ∃ t : Fin 3 → Matrix (Fin D) (Fin H) ℝ, Holds3 T t :=
  ⟨fun k i j => Classical.choose (h (ix3 k i j)), fun k i j => Classical.choose_spec (h (ix3 k i j))⟩

open Cert.KernelIdeal Cert.KernelIdeal.Gen Cert.KernelIdeal.Frame in
/-- Under the precondition the kernel program's result array is the reference's result stage of the same arguments. -/
theorem kernel_eq_ref (m : (ℓ : Loc nD τ sig) → Buf (Elt Ideal) ℓ) (ρ : Dev nD → PrngReg) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    (W10 m ρ c (Proc.devRef .tc main_v31) : Vec Ideal S10000x40 .f32)
      = Cert.ReferenceIdeal.ReadP.val_main_v33 (F := Ideal) (m ((c : Thread nD τ).loc main_arg0)) (m ((c : Thread nD τ).loc main_arg1))
          (m ((c : Thread nD τ).loc main_arg2)) (m ((c : Thread nD τ).loc main_arg3)) := by
  obtain ⟨h0, h1, h2, h3⟩ := Cert.Finite.real_of_pre _ _ _ _ hpre
  obtain ⟨x, hx⟩ := exists_holds (m ((c : Thread nD τ).loc main_arg0) : Vec Ideal S10000x128 .f32) h0
  obtain ⟨a, ha⟩ := exists_holds (m ((c : Thread nD τ).loc main_arg1) : Vec Ideal S10000x10000 .f32) h1
  obtain ⟨t, ht⟩ := exists_holds3 (m ((c : Thread nD τ).loc main_arg2) : Vec Ideal S3x128x64 .f32) h2
  obtain ⟨u, hu⟩ := exists_holds3 (m ((c : Thread nD τ).loc main_arg3) : Vec Ideal S3x64x40 .f32) h3
  obtain ⟨Z, hZ, hres⟩ := kernel_value m ρ c hx ha ht hu
  have hZr := Cert.ReferenceIdeal.RefValue.z2_holds (m ((c : Thread nD τ).loc main_arg0)) (m ((c : Thread nD τ).loc main_arg1))
    (m ((c : Thread nD τ).loc main_arg2)) (m ((c : Thread nD τ).loc main_arg3)) hx ha ht hu
  rw [← layer_eq, ← layer_eq] at hZr
  have hZeq := Holds.ext hZ hZr
  funext i
  obtain ⟨p, q, rfl⟩ : ∃ (p : Fin 10000) (q : Fin 40), i = ix2 p q := ⟨i 0, i 1, eq_ix2 i⟩
  rw [hres p q, Cert.ReferenceIdeal.RefValue.out_eq, hZeq]

end Cert.Bridge

end
-- ==== Proof.lean ====
/-
  The five claims. The kernel program and its idealization each run as four stretches of host operations and six
  kernel regions (Proof/KRun.lean, Proof/KIRun.lean): they terminate, fault nowhere and leave their arguments as launched.
  The reference is host operations only: its run gives its frame and its result as a term of the arguments. The ideal pass
  rewrote nothing, so the kernel program's idealization is its own text. At the exact instance, from memories that agree
  on the arguments and under the finiteness precondition, both programs end with the same result array (Proof/Bridge.lean):
  each layer  x (t0 - t2) + a (x t1 + 2 a (x t2))  is  x t0 + (a x) t1 + (2 a (a x) - x) t2  on real matrices.
-/
import proofs.«116701_g5634997092996_cont_sun_m_497_4_alg».proof.Defs
import proofs.«116701_g5634997092996_cont_sun_m_497_4_alg».proof.Proof.Gen.Kernel
import proofs.«116701_g5634997092996_cont_sun_m_497_4_alg».proof.Proof.Gen.KernelIdeal
import proofs.«116701_g5634997092996_cont_sun_m_497_4_alg».proof.Proof.Gen.ReferenceIdeal
import proofs.«116701_g5634997092996_cont_sun_m_497_4_alg».proof.Proof.Gen.Pre_finite_inputs
import proofs.«116701_g5634997092996_cont_sun_m_497_4_alg».proof.Proof.KRun
import proofs.«116701_g5634997092996_cont_sun_m_497_4_alg».proof.Proof.KIRun
import proofs.«116701_g5634997092996_cont_sun_m_497_4_alg».proof.Proof.RefRun
import proofs.«116701_g5634997092996_cont_sun_m_497_4_alg».proof.Proof.RefRead
import proofs.«116701_g5634997092996_cont_sun_m_497_4_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the reference's result stage of the kernel program's arguments. -/
theorem algebraic : Cert.algebraic_KernelIdeal_ReferenceIdeal := by
  intro m ρ m' ρ' hpre hagree
  refine ⟨fun c => Cert.ReferenceIdeal.ReadP.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Frame.run_all m ρ)
    · exact (h c _ (Cert.KernelIdeal.Frame.mem_uc Cert.KernelIdeal.main_v31 (by decide))).trans (Cert.Bridge.kernel_eq_ref m ρ c (hpre c))
    · exact (h c _ (Cert.KernelIdeal.Frame.mem_uc Cert.KernelIdeal.main_arg0 (by decide))).trans (Cert.KernelIdeal.Frame.W10_main_arg0 m ρ c)
    · exact (h c _ (Cert.KernelIdeal.Frame.mem_uc Cert.KernelIdeal.main_arg1 (by decide))).trans (Cert.KernelIdeal.Frame.W10_main_arg1 m ρ c)
    · exact (h c _ (Cert.KernelIdeal.Frame.mem_uc Cert.KernelIdeal.main_arg2 (by decide))).trans (Cert.KernelIdeal.Frame.W10_main_arg2 m ρ c)
    · exact (h c _ (Cert.KernelIdeal.Frame.mem_uc Cert.KernelIdeal.main_arg3 (by decide))).trans (Cert.KernelIdeal.Frame.W10_main_arg3 m ρ c)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v33_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
